-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel

variable [Facts]

def fn {F : FTy → Type} [FloatOps F] (main_arg0 : FVec F S16x64x256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  main_v3
-- ==== Kernel.lean ====
abbrev S16x64x256x256 : Shape := ⟨4, ![16, 64, 256, 256]⟩
abbrev S16x64x65536 : Shape := ⟨3, ![16, 64, 65536]⟩
abbrev S16x65536x64 : Shape := ⟨3, ![16, 65536, 64]⟩
abbrev S16x64x64 : Shape := ⟨3, ![16, 64, 64]⟩
abbrev S1x64x8192 : Shape := ⟨3, ![1, 64, 8192]⟩
abbrev S1x8192x64 : Shape := ⟨3, ![1, 8192, 64]⟩
abbrev S1x64x64 : Shape := ⟨3, ![1, 64, 64]⟩
abbrev S64x64 : Shape := ⟨2, ![64, 64]⟩
abbrev S64x8192 : Shape := ⟨2, ![64, 8192]⟩
abbrev S8192x64 : Shape := ⟨2, ![8192, 64]⟩
abbrev S64 : Shape := ⟨1, ![64]⟩
abbrev S64x1 : Shape := ⟨2, ![64, 1]⟩
abbrev S1x64x16384 : Shape := ⟨3, ![1, 64, 16384]⟩
abbrev S64x16384 : Shape := ⟨2, ![64, 16384]⟩

abbrev nBuf : Space → Nat
  | .hbm => 6
  | .vmem => 13
  | .smem => 0
  | _ => 0

abbrev bufTy : (tb : Table) → Fin (tcTables nBuf tb) → BufTy
  | .hbm, ⟨0, _⟩ => ⟨S16x64x256x256, .f32⟩
  | .hbm, ⟨1, _⟩ => ⟨S16x64x65536, .f32⟩
  | .hbm, ⟨2, _⟩ => ⟨S16x65536x64, .f32⟩
  | .hbm, ⟨3, _⟩ => ⟨S16x64x64, .f32⟩
  | .hbm, ⟨4, _⟩ => ⟨S16x64x65536, .f32⟩
  | .hbm, ⟨5, _⟩ => ⟨S16x64x256x256, .f32⟩
  | .local _ .vmem, ⟨0, _⟩ => ⟨S1x64x8192, .f32⟩
  | .local _ .vmem, ⟨1, _⟩ => ⟨S1x64x8192, .f32⟩
  | .local _ .vmem, ⟨2, _⟩ => ⟨S1x8192x64, .f32⟩
  | .local _ .vmem, ⟨3, _⟩ => ⟨S1x8192x64, .f32⟩
  | .local _ .vmem, ⟨4, _⟩ => ⟨S1x64x64, .f32⟩
  | .local _ .vmem, ⟨5, _⟩ => ⟨S1x64x64, .f32⟩
  | .local _ .vmem, ⟨6, _⟩ => ⟨S64x64, .f32⟩
  | .local _ .vmem, ⟨7, _⟩ => ⟨S1x64x64, .f32⟩
  | .local _ .vmem, ⟨8, _⟩ => ⟨S1x64x64, .f32⟩
  | .local _ .vmem, ⟨9, _⟩ => ⟨S1x64x16384, .f32⟩
  | .local _ .vmem, ⟨10, _⟩ => ⟨S1x64x16384, .f32⟩
  | .local _ .vmem, ⟨11, _⟩ => ⟨S1x64x16384, .f32⟩
  | .local _ .vmem, ⟨12, _⟩ => ⟨S1x64x16384, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x64x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S16x64x256x256_S16x64x65536 : S16x64x256x256.ShapeCasts S16x64x65536
  shapeCasts_S16x64x256x256_S16x65536x64 : S16x64x256x256.ShapeCasts S16x65536x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  bitsLt_bf16_f32 : FTy.bits .bf16 < FTy.bits .f32
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  reduces_S64x64_S64 : S64x64.Reduces [1] S64
  shapeCasts_S64_S64x1 : S64.ShapeCasts S64x1
  broadcasts_S64x1_S64x64 : S64x1.Broadcasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  shapeCasts_S64x16384_S1x64x16384 : S64x16384.ShapeCasts S1x64x16384
  shapeCasts_S16x64x65536_S16x64x256x256 : S16x64x65536.ShapeCasts S16x64x256x256
  dot_S64x8192_S8192x64_S64x64_1_0_0_1_n_n_wf : DotDims.WF S64x8192 S8192x64 S64x64 [1] [0] [0] [1] [] []
  dot_S64x64_S64x16384_S64x16384_1_0_0_1_n_n_wf : DotDims.WF S64x64 S64x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8192.size a ≤ S16x64x65536.size a
  hwx0_0 : ∀ i : grid0.Coords, EltTy.bits .f32 = 32 ∨ (Rect.block (s := S16x64x65536) S1x64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x64.size a ≤ S16x65536x64.size a
  hwx0_1 : ∀ i : grid0.Coords, EltTy.bits .f32 = 32 ∨ (Rect.block (s := S16x65536x64) S1x8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S16x64x64.size a
  hwx0_2 : ∀ i : grid0.Coords, EltTy.bits .f32 = 32 ∨ (Rect.block (s := S16x64x64) S1x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64.size a ≤ S16x64x64.size a
  hwx1_0 : ∀ i : grid1.Coords, EltTy.bits .f32 = 32 ∨ (Rect.block (s := S16x64x64) S1x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x16384.size a ≤ S16x64x65536.size a
  hwx1_1 : ∀ i : grid1.Coords, EltTy.bits .f32 = 32 ∨ (Rect.block (s := S16x64x65536) S1x64x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x16384.size a ≤ S16x64x65536.size a
  hwx1_2 : ∀ i : grid1.Coords, EltTy.bits .f32 = 32 ∨ (Rect.block (s := S16x64x65536) S1x64x16384.size (cc1_transform_2 i) (hinb1_2 i)).WholeWords (EltTy.packing .f32)

variable [Facts₀]

def dot_S64x8192_S8192x64_S64x64_1_0_0_1_n_n : DotDims S64x8192 S8192x64 S64x64 where
  lhsContracting := [1]
  rhsContracting := [0]
  lhsNonContracting := [0]
  rhsNonContracting := [1]
  lhsBatch := []
  rhsBatch := []
  wf := dot_S64x8192_S8192x64_S64x64_1_0_0_1_n_n_wf
def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf

abbrev win0_0 : Pipeline.Window sig grid0 :=
  Pipeline.Window.ofSpec (Memref.whole main_v0) S1x64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S1x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x64x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x64x16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x64x256x256 : Shape := ⟨4, ![16, 64, 256, 256]⟩
abbrev S16x64x65536 : Shape := ⟨3, ![16, 64, 65536]⟩
abbrev S16x65536x64 : Shape := ⟨3, ![16, 65536, 64]⟩
abbrev S16x64x64 : Shape := ⟨3, ![16, 64, 64]⟩
abbrev S_ : Shape := ⟨0, ![]⟩
abbrev S16x64 : Shape := ⟨2, ![16, 64]⟩
abbrev S16x64x1 : Shape := ⟨3, ![16, 64, 1]⟩

abbrev nBuf : Space → Nat
  | .hbm => 21
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S16x64x65536, .f32⟩
  | .hbm, ⟨2, _⟩ => ⟨S16x65536x64, .f32⟩
  | .hbm, ⟨3, _⟩ => ⟨S16x64x64, .f32⟩
  | .hbm, ⟨4, _⟩ => ⟨S_, .f32⟩
  | .hbm, ⟨5, _⟩ => ⟨S16x64, .f32⟩
  | .hbm, ⟨6, _⟩ => ⟨S_, .f32⟩
  | .hbm, ⟨7, _⟩ => ⟨S16x64, .f32⟩
  | .hbm, ⟨8, _⟩ => ⟨S16x64, .f32⟩
  | .hbm, ⟨9, _⟩ => ⟨S16x64x1, .f32⟩
  | .hbm, ⟨10, _⟩ => ⟨S16x64x64, .f32⟩
  | .hbm, ⟨11, _⟩ => ⟨S16x64x64, .f32⟩
  | .hbm, ⟨12, _⟩ => ⟨S16x64x64, .f32⟩
  | .hbm, ⟨13, _⟩ => ⟨S_, .f32⟩
  | .hbm, ⟨14, _⟩ => ⟨S16x64, .f32⟩
  | .hbm, ⟨15, _⟩ => ⟨S16x64x1, .f32⟩
  | .hbm, ⟨16, _⟩ => ⟨S16x64x64, .f32⟩
  | .hbm, ⟨17, _⟩ => ⟨S16x64x64, .f32⟩
  | .hbm, ⟨18, _⟩ => ⟨S16x64x65536, .f32⟩
  | .hbm, ⟨19, _⟩ => ⟨S16x64x256x256, .f32⟩
  | .hbm, ⟨20, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  shapeCasts_S16x64x256x256_S16x64x65536 : S16x64x256x256.ShapeCasts S16x64x65536
  shapeCasts_S16x64x256x256_S16x65536x64 : S16x64x256x256.ShapeCasts S16x65536x64
  reducesTo_S16x64x64_S16x64_d2 : S16x64x64.ReducesTo [2] S16x64
  h_S_ : 0 < S_.numel
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x64_0_1_2 : S16x64x1.BroadcastsInDim S16x64x64 (![0, 1, 2] : Fin 3 → Fin S16x64x64.rank)
  shapeCasts_S16x64x65536_S16x64x256x256 : S16x64x65536.ShapeCasts S16x64x256x256
  dot_S16x64x65536_S16x65536x64_S16x64x64_2_1_1_2_0_0_wf : DotDims.WF S16x64x65536 S16x65536x64 S16x64x64 [2] [1] [1] [2] [0] [0]
  dot_S16x64x64_S16x64x65536_S16x64x65536_2_1_1_2_0_0_wf : DotDims.WF S16x64x64 S16x64x65536 S16x64x65536 [2] [1] [1] [2] [0] [0]

variable [Facts₀]

def dot_S16x64x65536_S16x65536x64_S16x64x64_2_1_1_2_0_0 : DotDims S16x64x65536 S16x65536x64 S16x64x64 where
  lhsContracting := [2]
  rhsContracting := [1]
  lhsNonContracting := [1]
  rhsNonContracting := [2]
  lhsBatch := [0]
  rhsBatch := [0]
  wf := dot_S16x64x65536_S16x65536x64_S16x64x64_2_1_1_2_0_0_wf
def dot_S16x64x64_S16x64x65536_S16x64x65536_2_1_1_2_0_0 : DotDims S16x64x64 S16x64x65536 S16x64x65536 where
  lhsContracting := [2]
  rhsContracting := [1]
  lhsNonContracting := [1]
  rhsNonContracting := [2]
  lhsBatch := [0]
  rhsBatch := [0]
  wf := dot_S16x64x64_S16x64x65536_S16x64x65536_2_1_1_2_0_0_wf

class Facts : Prop extends Facts₀ where

variable [Facts]
-- ==== Proof.BitsR0.lean ====
/- The first pallas_call (the attention-logits kernel) as a pipeline region entered at buffer contents `V`:
   the accumulator it carries between grid points, what each window's staging buffer holds after the body at a grid
   point, and the body's triple there. -/
import proofs.«113237_j50362786513234_1_alg».proof.Proof.Gen.Kernel.Launch
import proofs.«113237_j50362786513234_1_alg».proof.Proof.Gen.Kernel.Skeleton
import proofs.«113237_j50362786513234_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions, in closed form over the grid -/

/-- The first branch's condition, from the grid coordinates: the step coordinate is 0. -/
abbrev cond0_0 (i : grid0.Coords) : Prop := (Scalar.cmpi .ne (Scalar.extui (Scalar.cmpi .eq (BitVec.ofNat 32 (i 1).val) 0#32)) 0#32) = 1#1
/-- The second branch's condition: the step coordinate is 7. -/
abbrev cond0_1 (i : grid0.Coords) : Prop := k0_cond2 i = 1#1

/-- The first holds exactly at a batch's first step, -/
theorem hcond0_0 : ∀ t : Fin cfg0.N, cond0_0 (grid0.coords t) ↔ t.val % 8 = 0 :=
  (by decide +kernel : ∀ t : Fin grid0.N, cond0_0 (grid0.coords t) ↔ t.val % 8 = 0)
/-- the second exactly at its last. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off a batch's last step the output window is idle and its block is not written back; -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- at the last step it is live. -/
theorem liveAt0_2 : ∀ t : Fin cfg0.N, cond0_1 (grid0.coords t) → cfg0.idle 2 (grid0.coords t) = false := by decide +kernel

/-! ## Loads and stores of a whole buffer -/

/-- The whole-buffer rectangle's offsets are zero, in rank 2 and in rank 3. -/
theorem hz2 : (![0, 0] : Fin 2 → ℕ) = fun _ => 0 := funext fun a => by fin_cases a <;> rfl
theorem hz3 : (![0, 0, 0] : Fin 3 → ℕ) = fun _ => 0 := funext fun a => by fin_cases a <;> rfl

set_option maxHeartbeats 1000000 in
/-- A MIDDLE step (neither branch taken): the two input blocks and the idle output buffer come back as they were; the
    accumulator, found at `xs`, is left at the product of the two blocks added to `xs`. Each load is of a whole buffer
    and reads its contents; the one store covers the accumulator, which then reads as the stored payload. -/
theorem run0_B (c : Dev nD) (i : grid0.Coords) (arg2 : Memref sig .tc .vmem S1x64x8192 .f32) (harg2 : arg2.IsWhole) (arg3 : Memref sig .tc .vmem S1x8192x64 .f32) (harg3 : arg3.IsWhole) (arg4 : Memref sig .tc .vmem S1x64x64 .f32) (harg4 : arg4.IsWhole) (arg5 : Memref sig .tc .vmem S64x64 .f32) (harg5 : arg5.IsWhole)
    (hc0 : ¬cond0_0 i) (hc1 : ¬cond0_1 i)
    (x0 : Vec F S1x64x8192 .f32) (x1 : Vec F S1x8192x64 .f32) (xi : Vec F S1x64x64 .f32) (xs : Vec F S64x64 .f32)
    (E : Set ℕ) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k0_pay2 x0 x1 xs)) -∗ K ⟨⟩))
      ⊢ wp frame (wpE (defs₀ (F := F)) Variants.none c none) E (cc0__attn_logits_kernel i arg2 harg2 arg3 harg3 arg4 harg4 arg5 harg5) K := by
  simp only [cc0__attn_logits_kernel_eq_skeleton]; unfold cc0__attn_logits_kernel_skel
  unfold owns
  iintro ⟨⟨%f0, %hf0, H0⟩, ⟨%f1, %hf1, H1⟩, ⟨%fi, %hfi, Hi⟩, ⟨%fs, %hfs, HS⟩, Hk⟩
  subst hf0 hf1 hfi hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists fi; isplitr; · ipureintro; rfl
    iexact Hi
  iexists _; isplitr
  swap; · iexact HS
  ipureintro
  rw [View.read_writes_eq_canon _ _ _ (fun y => ⟨_, List.mem_singleton_self _, View.mem_set_unit_zero hz2 inb_S64x64_S64x64_0_0 y⟩), View.canon_unit_zero hz2]
  simp only [View.readAt_eq_ld, View.ld_unit_zero (S := S1x64x8192) hz3, View.ld_unit_zero (S := S1x8192x64) hz3, View.ld_unit_zero (S := S64x64) hz2]

set_option maxHeartbeats 1000000 in
/-- A batch's FIRST step (the reset taken, the output not stored): the accumulator, found at anything, is zeroed and
    then left at the product of the two blocks added to the zeros. -/
theorem run0_A (c : Dev nD) (i : grid0.Coords) (arg2 : Memref sig .tc .vmem S1x64x8192 .f32) (harg2 : arg2.IsWhole) (arg3 : Memref sig .tc .vmem S1x8192x64 .f32) (harg3 : arg3.IsWhole) (arg4 : Memref sig .tc .vmem S1x64x64 .f32) (harg4 : arg4.IsWhole) (arg5 : Memref sig .tc .vmem S64x64 .f32) (harg5 : arg5.IsWhole)
    (hc0 : cond0_0 i) (hc1 : ¬cond0_1 i)
    (x0 : Vec F S1x64x8192 .f32) (x1 : Vec F S1x8192x64 .f32) (xi : Vec F S1x64x64 .f32)
    (E : Set ℕ) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k0_pay2 x0 x1 (k0_pay1 (F := F)))) -∗ K ⟨⟩))
      ⊢ wp frame (wpE (defs₀ (F := F)) Variants.none c none) E (cc0__attn_logits_kernel i arg2 harg2 arg3 harg3 arg4 harg4 arg5 harg5) K := by
  simp only [cc0__attn_logits_kernel_eq_skeleton]; unfold cc0__attn_logits_kernel_skel
  unfold owns
  iintro ⟨⟨%f0, %hf0, H0⟩, ⟨%f1, %hf1, H1⟩, ⟨%fi, %hfi, Hi⟩, ⟨%ds, %fs, -, HS⟩, Hk⟩
  subst hf0 hf1 hfi
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists fi; isplitr; · ipureintro; rfl
    iexact Hi
  iexists _; isplitr
  swap; · iexact HS
  ipureintro
  sl_unfold_words
  rw [View.read_writes_eq_canon _ _ _ (fun y => ⟨_, List.mem_cons_self .., View.mem_set_unit_zero hz2 inb_S64x64_S64x64_0_0 y⟩), View.canon_cons_unit_zero hz2]
  simp only [View.readAt_eq_ld, View.ld_unit_zero (S := S1x64x8192) hz3, View.ld_unit_zero (S := S1x8192x64) hz3, View.ld_unit_zero (S := S64x64) hz2, View.readCov_unit_zero (S := S64x64) _ hz2]

set_option maxHeartbeats 1000000 in
/-- A batch's LAST step (the reset not taken, the output stored): the accumulator, found at `xs`, is left at the product
    of the two blocks added to `xs`, and the output buffer, found at anything, at the row softmax of that. -/
theorem run0_C (c : Dev nD) (i : grid0.Coords) (arg2 : Memref sig .tc .vmem S1x64x8192 .f32) (harg2 : arg2.IsWhole) (arg3 : Memref sig .tc .vmem S1x8192x64 .f32) (harg3 : arg3.IsWhole) (arg4 : Memref sig .tc .vmem S1x64x64 .f32) (harg4 : arg4.IsWhole) (arg5 : Memref sig .tc .vmem S64x64 .f32) (harg5 : arg5.IsWhole)
    (hc0 : ¬cond0_0 i) (hc1 : cond0_1 i)
    (x0 : Vec F S1x64x8192 .f32) (x1 : Vec F S1x8192x64 .f32) (xs : Vec F S64x64 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 x0 x1 xs))
            ∗ owns (c : Thread nD τ) arg5 fullShare (k0_pay2 x0 x1 xs)) -∗ K ⟨⟩))
      ⊢ wp frame (wpE (defs₀ (F := F)) Variants.none c none) E (cc0__attn_logits_kernel i arg2 harg2 arg3 harg3 arg4 harg4 arg5 harg5) K := by
  simp only [cc0__attn_logits_kernel_eq_skeleton]; unfold cc0__attn_logits_kernel_skel
  unfold owns
  iintro ⟨⟨%f0, %hf0, H0⟩, ⟨%f1, %hf1, H1⟩, ⟨%di, %fi, -, Hi⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists _; isplitr
    swap; · iexact Hi
    ipureintro
    sl_unfold_words
    rw [View.read_writes_eq_canon _ _ _ (fun y => ⟨_, List.mem_singleton_self _, View.mem_set_unit_zero hz3 inb_S1x64x64_S1x64x64_0_0_0 y⟩), View.canon_unit_zero hz3]
    simp only [View.readAt_eq_ld, View.ld_unit_zero (S := S1x64x8192) hz3, View.ld_unit_zero (S := S1x8192x64) hz3, View.ld_unit_zero (S := S64x64) hz2, View.readCov_unit_zero (S := S64x64) _ hz2]
  iexists _; isplitr
  swap; · iexact HS
  ipureintro
  sl_unfold_words
  rw [View.read_writes_eq_canon _ _ _ (fun y => ⟨_, List.mem_singleton_self _, View.mem_set_unit_zero hz2 inb_S64x64_S64x64_0_0 y⟩), View.canon_unit_zero hz2]
  simp only [View.readAt_eq_ld, View.ld_unit_zero (S := S1x64x8192) hz3, View.ld_unit_zero (S := S1x8192x64) hz3, View.ld_unit_zero (S := S64x64) hz2]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position `n` of the grid (batch `n / 8`, step `n % 8`): at a step 0 the
    product of the point's two blocks added to the zero it has just been reset to, elsewhere added to what the point
    before left. -/
def acc0 (c : Dev nD) : (n : ℕ) → n < cfg0.N → Vec F S64x64 .f32
  | 0, h => k0_pay2 (iblk0 V c 0 ⟨0, h⟩) (iblk0 V c 1 ⟨0, h⟩) (k0_pay1 (F := F))
  | n + 1, h =>
    if (n + 1) % 8 = 0 then k0_pay2 (iblk0 V c 0 ⟨n + 1, h⟩) (iblk0 V c 1 ⟨n + 1, h⟩) (k0_pay1 (F := F))
    else k0_pay2 (iblk0 V c 0 ⟨n + 1, h⟩) (iblk0 V c 1 ⟨n + 1, h⟩) (acc0 c n (Nat.lt_of_succ_lt h))

theorem acc0_reset (c : Dev nD) (t : Fin cfg0.N) (h : t.val % 8 = 0) :
    acc0 V c t.val t.isLt = k0_pay2 (iblk0 V c 0 t) (iblk0 V c 1 t) (k0_pay1 (F := F)) := by
  obtain ⟨n, hn⟩ := t
  cases n with
  | zero => rfl
  | succ n => exact if_pos h

theorem acc0_step (c : Dev nD) (t : Fin cfg0.N) (h : t.val % 8 ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod 8) h
  | succ n => exact if_neg h

/-- The scratch operand: a whole scoped buffer of the kernel's own, passed beside the windows. -/
abbrev scM0 : Memref sig .tc .vmem S64x64 .f32 := Memref.whole cc0_scratch0

/-- The region invariant before position `n`: before the first point the scoped rest at anything; afterwards the
    accumulator at what the point before left in it, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))
      ∗ (∃ r, prngReg c r))

/-- The proof data of the first pipeline: the two input blocks stay as fetched; the output block, written only at a
    batch's last step, is the row softmax of the accumulator; the accumulator rides in the invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

/-! ## The invariant, unfolded -/

/-- The six staging buffers of the other pipeline, each whole at some contents: the part of the scoped rest this
    pipeline's body never touches. -/
def rest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))

/-- The scoped rest as the launch hands it: the accumulator owned at some contents, the six other buffers, the
    generator register at some state. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

theorem PhiS0_zero (c : Dev nD) (n : ℕ) (h : n ≤ cfg0.N) (hz : n = 0) : PhiS0 V c n h = Pipeline.ΦA spec0 c := by
  subst hz; rfl

/-- After point `n`: the accumulator at that point's value. -/
theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## The input windows hold their blocks at every point -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation at a generic point -/

/-- Each window's current staging memref at point `t`, as the pipeline passes it to the body. -/
abbrev ms0_0 (t : Fin cfg0.N) : Memref sig .tc .vmem S1x64x8192 .f32 := win0_0.stage (cfg0.slots t 0)
abbrev ms0_1 (t : Fin cfg0.N) : Memref sig .tc .vmem S1x8192x64 .f32 := win0_1.stage (cfg0.slots t 1)
abbrev ms0_2 (t : Fin cfg0.N) : Memref sig .tc .vmem S1x64x64 .f32 := win0_2.stage (cfg0.slots t 2)

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input windows hold their blocks; the step coordinate says which of the three cases
    the point is in. The invariant hands the body the accumulator — at what the point before left, or at anything at the
    very first point — and takes it back at this point's value (`acc0_reset` at a step 0, `acc0_step` elsewhere); the
    six other scoped buffers and the generator register pass through; the output window is handed back untouched
    off a batch's last step and holds the row softmax of the accumulator at it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 128 := lt_of_lt_of_eq t.isLt (show cfg0.N = 128 from N_0)
  by_cases h1 : t.val % 8 = 7
  · have h0 : ¬t.val % 8 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [acc0_step V c t h0]
    rw [PhiS0_castSucc V c t, PhiS0_pos V c _ _ hz]
    iintro ⟨⟨⟨HS, Hr⟩, Hg⟩, Ho, ⟨%d0, H0⟩, ⟨%d1, H1⟩, ⟨%d2, H2⟩⟩
    iapply (run0_C c (grid0.coords t) _ _ _ _ _ _ _ _ (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 8 = 0
    · rw [acc0_reset V c t h0]
      by_cases hz : t.val = 0
      · rw [PhiS0_castSucc V c t, PhiS0_zero V c _ _ hz, PhiA0_eq]
        iintro ⟨⟨⟨HS, Hr⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, Hr⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexists _; iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
    · have hz : t.val ≠ 0 := fun e => h0 (by rw [e])
      rw [acc0_step V c t h0]
      rw [PhiS0_castSucc V c t, PhiS0_pos V c _ _ hz]
      iintro ⟨⟨⟨HS, Hr⟩, Hg⟩, Ho, ⟨%d0, H0⟩, ⟨%d1, H1⟩, ⟨%d2, H2⟩⟩
      iapply (run0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The body obligation of the first pipeline at every grid point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hr⟩, Hg⟩
  isplitl [HS Hr]
  · isplitl [HS]; · iexists _; iexact HS
    iexact Hr
  iexact Hg

end Cert.Kernel.Hand

end
-- ==== Proof.BitsR1.lean ====
/- The second pallas_call (the output kernel) as a pipeline region entered at buffer contents `V`:
   what each window's staging buffer holds after the body at a grid point, and the body's triple there. -/
import proofs.«113237_j50362786513234_1_alg».proof.Proof.Gen.Kernel.Launch
import proofs.«113237_j50362786513234_1_alg».proof.Proof.Gen.Kernel.Skeleton
import proofs.«113237_j50362786513234_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second pipeline: the attention block and the query block stay as fetched; the output block is
    the product of the two plus the query block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

/-! ## The input windows' staging buffers before the body -/

/-- The attention window's staging buffer holds its block at every point, fetched there or not, for any proof
    data whose array is the entry contents and whose body leaves the block in place: where it is not fetched the
    block index has not moved since the point before, so the block is the one already held. The window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The query window's staging buffer holds its block at every point (it is fetched at every point; the same
    statement covers it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

/-! ## The body's accesses: every load and the one store are of a whole buffer -/

/-- The three zero offsets, as the constant function. -/
theorem zeros3 : (![0, 0, 0] : Fin 3 → Nat) = fun _ => 0 := funext fun a => by fin_cases a <;> rfl

/-- The whole 1x64x16384 buffer as a rectangle: zero offsets, the buffer's own sizes. -/
abbrev rOut1 : Rect S1x64x16384 := Rect.unit (s := S1x64x16384) ![0, 0, 0] S1x64x16384.size inb_S1x64x16384_S1x64x16384_0_0_0

/-- The one store covers the output buffer. -/
theorem cover1_2 (p : Vec F S1x64x16384 .f32) (y : S1x64x16384.Idx) :
    ∃ pc ∈ ([⟨rOut1, p⟩] : List (View.Piece (Elt F) S1x64x16384 .f32)), y ∈ pc.1.set :=
  ⟨_, List.mem_singleton_self _, View.mem_set_unit_zero (S := S1x64x16384) zeros3 inb_S1x64x16384_S1x64x16384_0_0_0 y⟩

/-! ## The body's triple -/

set_option maxHeartbeats 1000000 in
/-- The body on whole staging memrefs — the two inputs' reading `x0` and `x1`, the output's at anything — runs to
    the continuation holding the inputs' as they were and the output's reading the payload of the two: the loads
    read the buffers whole, the output's loaded value is dropped, and the one store overwrites the whole buffer. -/
theorem sound_kernel1 (c : Dev nD) (E : Set ℕ) (i : grid1.Coords) (arg2 : Memref sig .tc .vmem S1x64x64 .f32) (harg2 : arg2.IsWhole)
    (arg3 : Memref sig .tc .vmem S1x64x16384 .f32) (harg3 : arg3.IsWhole) (arg4 : Memref sig .tc .vmem S1x64x16384 .f32) (harg4 : arg4.IsWhole)
    (x0 : Vec F S1x64x64 .f32) (x1 : Vec F S1x64x16384 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k1_pay1 x0 x1)) -∗ K ⟨⟩))
      ⊢ wp frame (wpE (defs₀ (F := F)) Variants.none c none) E (cc1__output_kernel i arg2 harg2 arg3 harg3 arg4 harg4) K := by
  simp only [cc1__output_kernel_eq_skeleton]; unfold cc1__output_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover1_2 _),
    View.canon_unit_zero (S := S1x64x16384) zeros3 inb_S1x64x16384_S1x64x16384_0_0_0]
  simp only [View.readAt_eq_ld, View.ld_unit_zero (S := S1x64x64) zeros3 inb_S1x64x64_S1x64x64_0_0_0,
    View.ld_unit_zero (S := S1x64x16384) zeros3 inb_S1x64x16384_S1x64x16384_0_0_0]

/-! ## The body obligation, at a generic point -/

/-- What the body is called with at point `t`: the invariant, what the core owes, and each window's current staging
    buffer — the inputs' and the output's at what the pipeline left in them. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns: the same, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second pipeline at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/- The whole run of @main: two reshapes, the attention-logits pipeline, the output pipeline, a last reshape.
   The contents of every unscoped buffer at each boundary between these four items are written as a fold from the
   launch memory; each pipeline's proof data are taken at the contents its region is entered from; the run ends with
   every unscoped buffer at the last boundary's contents, from which the frame claim (the argument ends as launched)
   and the value of the result are read. -/
import proofs.«113237_j50362786513234_1_alg».proof.Proof.BitsR0
import proofs.«113237_j50362786513234_1_alg».proof.Proof.BitsR1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the two reshapes of the argument (the first pipeline's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first pipeline's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second pipeline's exit (it is entered right after the first): its arrays at what its write-backs leave. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape (the return). -/
abbrev W4 : Dev nD → Valuation τ sig (Elt F) := fun c => StableHlo.after hostOps2 (W3 m ρ c)

/-! ## The argument ends as launched: no reshape writes it and no pipeline stages it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.reshape_writes, Finset.mem_singleton]
          exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

/-! ## What the value of the result is read from -/

/-- The result's array of the second pipeline at its exit. -/
theorem W3_main_v3 (c : Dev nD) : W3 m ρ c (Proc.devRef .tc main_v3) = (dat1 (V2 m ρ) c).arrAt 2 cfg1.N :=
  W3_arr m ρ c 2
/-- The attention array the second pipeline is entered at is what the first leaves. -/
theorem V2_main_v2 (c : Dev nD) : V2 m ρ c main_v2 = (dat0 (V1 m ρ) c).arrAt 2 cfg0.N :=
  W2_arr m ρ c 2
/-- The query array the second pipeline is entered at is the one the first was entered at. -/
theorem V2_main_v0 (c : Dev nD) : V2 m ρ c main_v0 = V1 m ρ c main_v0 :=
  (W2_arr m ρ c 0).trans (((dat0 (V1 m ρ) c).arrAt_in 0 rfl _).trans (A_eq0 (V1 m ρ) c 0))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W4 m ρ c) ∗ ∃ r, prngReg c r)

/-! ## The pipelines as items of the run -/

set_option backward.isDefEq.respectTransparency.types false in
/-- The first pipeline: entered from every unscoped buffer at `W1`, left at `W2`. Its arrays are split out of the
    unscoped buffers and put back at the exit contents; the generator register goes into the invariant and comes out;
    the accumulator's contents are forgotten at the exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    have h := hin0 (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pipeline: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its four items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final state holds each unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution of @main terminates, nothing faulting, and the argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W4_main_arg0 m ρ c)) (run_all m ρ)

end Cert.Kernel.Hand

end
-- ==== Proof.IdealR0.lean ====
/- The first pallas_call (the attention-logits kernel) as a pipeline region entered at buffer contents `V`:
   the accumulator it carries between grid points, what each window's staging buffer holds after the body at a grid
   point, and the body's triple there. -/
import proofs.«113237_j50362786513234_1_alg».proof.Proof.Gen.KernelIdeal.Launch
import proofs.«113237_j50362786513234_1_alg».proof.Proof.Gen.KernelIdeal.Skeleton
import proofs.«113237_j50362786513234_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions, in closed form over the grid -/

/-- The first branch's condition, from the grid coordinates: the step coordinate is 0. -/
abbrev cond0_0 (i : grid0.Coords) : Prop := (Scalar.cmpi .ne (Scalar.extui (Scalar.cmpi .eq (BitVec.ofNat 32 (i 1).val) 0#32)) 0#32) = 1#1
/-- The second branch's condition: the step coordinate is 7. -/
abbrev cond0_1 (i : grid0.Coords) : Prop := k0_cond2 i = 1#1

/-- The first holds exactly at a batch's first step, -/
theorem hcond0_0 : ∀ t : Fin cfg0.N, cond0_0 (grid0.coords t) ↔ t.val % 8 = 0 :=
  (by decide +kernel : ∀ t : Fin grid0.N, cond0_0 (grid0.coords t) ↔ t.val % 8 = 0)
/-- the second exactly at its last. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off a batch's last step the output window is idle and its block is not written back; -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- at the last step it is live. -/
theorem liveAt0_2 : ∀ t : Fin cfg0.N, cond0_1 (grid0.coords t) → cfg0.idle 2 (grid0.coords t) = false := by decide +kernel

/-! ## Loads and stores of a whole buffer -/

/-- The whole-buffer rectangle's offsets are zero, in rank 2 and in rank 3. -/
theorem hz2 : (![0, 0] : Fin 2 → ℕ) = fun _ => 0 := funext fun a => by fin_cases a <;> rfl
theorem hz3 : (![0, 0, 0] : Fin 3 → ℕ) = fun _ => 0 := funext fun a => by fin_cases a <;> rfl

set_option maxHeartbeats 1000000 in
/-- A MIDDLE step (neither branch taken): the two input blocks and the idle output buffer come back as they were; the
    accumulator, found at `xs`, is left at the product of the two blocks added to `xs`. Each load is of a whole buffer
    and reads its contents; the one store covers the accumulator, which then reads as the stored payload. -/
theorem run0_B (c : Dev nD) (i : grid0.Coords) (arg2 : Memref sig .tc .vmem S1x64x8192 .f32) (harg2 : arg2.IsWhole) (arg3 : Memref sig .tc .vmem S1x8192x64 .f32) (harg3 : arg3.IsWhole) (arg4 : Memref sig .tc .vmem S1x64x64 .f32) (harg4 : arg4.IsWhole) (arg5 : Memref sig .tc .vmem S64x64 .f32) (harg5 : arg5.IsWhole)
    (hc0 : ¬cond0_0 i) (hc1 : ¬cond0_1 i)
    (x0 : Vec F S1x64x8192 .f32) (x1 : Vec F S1x8192x64 .f32) (xi : Vec F S1x64x64 .f32) (xs : Vec F S64x64 .f32)
    (E : Set ℕ) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k0_pay2 x0 x1 xs)) -∗ K ⟨⟩))
      ⊢ wp frame (wpE (defs₀ (F := F)) Variants.none c none) E (cc0__attn_logits_kernel i arg2 harg2 arg3 harg3 arg4 harg4 arg5 harg5) K := by
  simp only [cc0__attn_logits_kernel_eq_skeleton]; unfold cc0__attn_logits_kernel_skel
  unfold owns
  iintro ⟨⟨%f0, %hf0, H0⟩, ⟨%f1, %hf1, H1⟩, ⟨%fi, %hfi, Hi⟩, ⟨%fs, %hfs, HS⟩, Hk⟩
  subst hf0 hf1 hfi hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists fi; isplitr; · ipureintro; rfl
    iexact Hi
  iexists _; isplitr
  swap; · iexact HS
  ipureintro
  rw [View.read_writes_eq_canon _ _ _ (fun y => ⟨_, List.mem_singleton_self _, View.mem_set_unit_zero hz2 inb_S64x64_S64x64_0_0 y⟩), View.canon_unit_zero hz2]
  simp only [View.readAt_eq_ld, View.ld_unit_zero (S := S1x64x8192) hz3, View.ld_unit_zero (S := S1x8192x64) hz3, View.ld_unit_zero (S := S64x64) hz2]

set_option maxHeartbeats 1000000 in
/-- A batch's FIRST step (the reset taken, the output not stored): the accumulator, found at anything, is zeroed and
    then left at the product of the two blocks added to the zeros. -/
theorem run0_A (c : Dev nD) (i : grid0.Coords) (arg2 : Memref sig .tc .vmem S1x64x8192 .f32) (harg2 : arg2.IsWhole) (arg3 : Memref sig .tc .vmem S1x8192x64 .f32) (harg3 : arg3.IsWhole) (arg4 : Memref sig .tc .vmem S1x64x64 .f32) (harg4 : arg4.IsWhole) (arg5 : Memref sig .tc .vmem S64x64 .f32) (harg5 : arg5.IsWhole)
    (hc0 : cond0_0 i) (hc1 : ¬cond0_1 i)
    (x0 : Vec F S1x64x8192 .f32) (x1 : Vec F S1x8192x64 .f32) (xi : Vec F S1x64x64 .f32)
    (E : Set ℕ) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k0_pay2 x0 x1 (k0_pay1 (F := F)))) -∗ K ⟨⟩))
      ⊢ wp frame (wpE (defs₀ (F := F)) Variants.none c none) E (cc0__attn_logits_kernel i arg2 harg2 arg3 harg3 arg4 harg4 arg5 harg5) K := by
  simp only [cc0__attn_logits_kernel_eq_skeleton]; unfold cc0__attn_logits_kernel_skel
  unfold owns
  iintro ⟨⟨%f0, %hf0, H0⟩, ⟨%f1, %hf1, H1⟩, ⟨%fi, %hfi, Hi⟩, ⟨%ds, %fs, -, HS⟩, Hk⟩
  subst hf0 hf1 hfi
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists fi; isplitr; · ipureintro; rfl
    iexact Hi
  iexists _; isplitr
  swap; · iexact HS
  ipureintro
  sl_unfold_words
  rw [View.read_writes_eq_canon _ _ _ (fun y => ⟨_, List.mem_cons_self .., View.mem_set_unit_zero hz2 inb_S64x64_S64x64_0_0 y⟩), View.canon_cons_unit_zero hz2]
  simp only [View.readAt_eq_ld, View.ld_unit_zero (S := S1x64x8192) hz3, View.ld_unit_zero (S := S1x8192x64) hz3, View.ld_unit_zero (S := S64x64) hz2, View.readCov_unit_zero (S := S64x64) _ hz2]

set_option maxHeartbeats 1000000 in
/-- A batch's LAST step (the reset not taken, the output stored): the accumulator, found at `xs`, is left at the product
    of the two blocks added to `xs`, and the output buffer, found at anything, at the row softmax of that. -/
theorem run0_C (c : Dev nD) (i : grid0.Coords) (arg2 : Memref sig .tc .vmem S1x64x8192 .f32) (harg2 : arg2.IsWhole) (arg3 : Memref sig .tc .vmem S1x8192x64 .f32) (harg3 : arg3.IsWhole) (arg4 : Memref sig .tc .vmem S1x64x64 .f32) (harg4 : arg4.IsWhole) (arg5 : Memref sig .tc .vmem S64x64 .f32) (harg5 : arg5.IsWhole)
    (hc0 : ¬cond0_0 i) (hc1 : cond0_1 i)
    (x0 : Vec F S1x64x8192 .f32) (x1 : Vec F S1x8192x64 .f32) (xs : Vec F S64x64 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 x0 x1 xs))
            ∗ owns (c : Thread nD τ) arg5 fullShare (k0_pay2 x0 x1 xs)) -∗ K ⟨⟩))
      ⊢ wp frame (wpE (defs₀ (F := F)) Variants.none c none) E (cc0__attn_logits_kernel i arg2 harg2 arg3 harg3 arg4 harg4 arg5 harg5) K := by
  simp only [cc0__attn_logits_kernel_eq_skeleton]; unfold cc0__attn_logits_kernel_skel
  unfold owns
  iintro ⟨⟨%f0, %hf0, H0⟩, ⟨%f1, %hf1, H1⟩, ⟨%di, %fi, -, Hi⟩, ⟨%fs, %hfs, HS⟩, Hk⟩
  subst hf0 hf1 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists _; isplitr
    swap; · iexact Hi
    ipureintro
    sl_unfold_words
    rw [View.read_writes_eq_canon _ _ _ (fun y => ⟨_, List.mem_singleton_self _, View.mem_set_unit_zero hz3 inb_S1x64x64_S1x64x64_0_0_0 y⟩), View.canon_unit_zero hz3]
    simp only [View.readAt_eq_ld, View.ld_unit_zero (S := S1x64x8192) hz3, View.ld_unit_zero (S := S1x8192x64) hz3, View.ld_unit_zero (S := S64x64) hz2, View.readCov_unit_zero (S := S64x64) _ hz2]
  iexists _; isplitr
  swap; · iexact HS
  ipureintro
  sl_unfold_words
  rw [View.read_writes_eq_canon _ _ _ (fun y => ⟨_, List.mem_singleton_self _, View.mem_set_unit_zero hz2 inb_S64x64_S64x64_0_0 y⟩), View.canon_unit_zero hz2]
  simp only [View.readAt_eq_ld, View.ld_unit_zero (S := S1x64x8192) hz3, View.ld_unit_zero (S := S1x8192x64) hz3, View.ld_unit_zero (S := S64x64) hz2]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position `n` of the grid (batch `n / 8`, step `n % 8`): at a step 0 the
    product of the point's two blocks added to the zero it has just been reset to, elsewhere added to what the point
    before left. -/
def acc0 (c : Dev nD) : (n : ℕ) → n < cfg0.N → Vec F S64x64 .f32
  | 0, h => k0_pay2 (iblk0 V c 0 ⟨0, h⟩) (iblk0 V c 1 ⟨0, h⟩) (k0_pay1 (F := F))
  | n + 1, h =>
    if (n + 1) % 8 = 0 then k0_pay2 (iblk0 V c 0 ⟨n + 1, h⟩) (iblk0 V c 1 ⟨n + 1, h⟩) (k0_pay1 (F := F))
    else k0_pay2 (iblk0 V c 0 ⟨n + 1, h⟩) (iblk0 V c 1 ⟨n + 1, h⟩) (acc0 c n (Nat.lt_of_succ_lt h))

theorem acc0_reset (c : Dev nD) (t : Fin cfg0.N) (h : t.val % 8 = 0) :
    acc0 V c t.val t.isLt = k0_pay2 (iblk0 V c 0 t) (iblk0 V c 1 t) (k0_pay1 (F := F)) := by
  obtain ⟨n, hn⟩ := t
  cases n with
  | zero => rfl
  | succ n => exact if_pos h

theorem acc0_step (c : Dev nD) (t : Fin cfg0.N) (h : t.val % 8 ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod 8) h
  | succ n => exact if_neg h

/-- The scratch operand: a whole scoped buffer of the kernel's own, passed beside the windows. -/
abbrev scM0 : Memref sig .tc .vmem S64x64 .f32 := Memref.whole cc0_scratch0

/-- The region invariant before position `n`: before the first point the scoped rest at anything; afterwards the
    accumulator at what the point before left in it, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))
      ∗ (∃ r, prngReg c r))

/-- The proof data of the first pipeline: the two input blocks stay as fetched; the output block, written only at a
    batch's last step, is the row softmax of the accumulator; the accumulator rides in the invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

/-! ## The invariant, unfolded -/

/-- The six staging buffers of the other pipeline, each whole at some contents: the part of the scoped rest this
    pipeline's body never touches. -/
def rest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))

/-- The scoped rest as the launch hands it: the accumulator owned at some contents, the six other buffers, the
    generator register at some state. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

theorem PhiS0_zero (c : Dev nD) (n : ℕ) (h : n ≤ cfg0.N) (hz : n = 0) : PhiS0 V c n h = Pipeline.ΦA spec0 c := by
  subst hz; rfl

/-- After point `n`: the accumulator at that point's value. -/
theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## The input windows hold their blocks at every point -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation at a generic point -/

/-- Each window's current staging memref at point `t`, as the pipeline passes it to the body. -/
abbrev ms0_0 (t : Fin cfg0.N) : Memref sig .tc .vmem S1x64x8192 .f32 := win0_0.stage (cfg0.slots t 0)
abbrev ms0_1 (t : Fin cfg0.N) : Memref sig .tc .vmem S1x8192x64 .f32 := win0_1.stage (cfg0.slots t 1)
abbrev ms0_2 (t : Fin cfg0.N) : Memref sig .tc .vmem S1x64x64 .f32 := win0_2.stage (cfg0.slots t 2)

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input windows hold their blocks; the step coordinate says which of the three cases
    the point is in. The invariant hands the body the accumulator — at what the point before left, or at anything at the
    very first point — and takes it back at this point's value (`acc0_reset` at a step 0, `acc0_step` elsewhere); the
    six other scoped buffers and the generator register pass through; the output window is handed back untouched
    off a batch's last step and holds the row softmax of the accumulator at it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 128 := lt_of_lt_of_eq t.isLt (show cfg0.N = 128 from N_0)
  by_cases h1 : t.val % 8 = 7
  · have h0 : ¬t.val % 8 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [acc0_step V c t h0]
    rw [PhiS0_castSucc V c t, PhiS0_pos V c _ _ hz]
    iintro ⟨⟨⟨HS, Hr⟩, Hg⟩, Ho, ⟨%d0, H0⟩, ⟨%d1, H1⟩, ⟨%d2, H2⟩⟩
    iapply (run0_C c (grid0.coords t) _ _ _ _ _ _ _ _ (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 8 = 0
    · rw [acc0_reset V c t h0]
      by_cases hz : t.val = 0
      · rw [PhiS0_castSucc V c t, PhiS0_zero V c _ _ hz, PhiA0_eq]
        iintro ⟨⟨⟨HS, Hr⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, Hr⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexists _; iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
    · have hz : t.val ≠ 0 := fun e => h0 (by rw [e])
      rw [acc0_step V c t h0]
      rw [PhiS0_castSucc V c t, PhiS0_pos V c _ _ hz]
      iintro ⟨⟨⟨HS, Hr⟩, Hg⟩, Ho, ⟨%d0, H0⟩, ⟨%d1, H1⟩, ⟨%d2, H2⟩⟩
      iapply (run0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The body obligation of the first pipeline at every grid point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hr⟩, Hg⟩
  isplitl [HS Hr]
  · isplitl [HS]; · iexists _; iexact HS
    iexact Hr
  iexact Hg

end Cert.KernelIdeal.Hand

end
-- ==== Proof.IdealR1.lean ====
/- The second pallas_call (the output kernel) as a pipeline region entered at buffer contents `V`:
   what each window's staging buffer holds after the body at a grid point, and the body's triple there. -/
import proofs.«113237_j50362786513234_1_alg».proof.Proof.Gen.KernelIdeal.Launch
import proofs.«113237_j50362786513234_1_alg».proof.Proof.Gen.KernelIdeal.Skeleton
import proofs.«113237_j50362786513234_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second pipeline: the attention block and the query block stay as fetched; the output block is
    the product of the two plus the query block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

/-! ## The input windows' staging buffers before the body -/

/-- The attention window's staging buffer holds its block at every point, fetched there or not, for any proof
    data whose array is the entry contents and whose body leaves the block in place: where it is not fetched the
    block index has not moved since the point before, so the block is the one already held. The window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The query window's staging buffer holds its block at every point (it is fetched at every point; the same
    statement covers it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

/-! ## The body's accesses: every load and the one store are of a whole buffer -/

/-- The three zero offsets, as the constant function. -/
theorem zeros3 : (![0, 0, 0] : Fin 3 → Nat) = fun _ => 0 := funext fun a => by fin_cases a <;> rfl

/-- The whole 1x64x16384 buffer as a rectangle: zero offsets, the buffer's own sizes. -/
abbrev rOut1 : Rect S1x64x16384 := Rect.unit (s := S1x64x16384) ![0, 0, 0] S1x64x16384.size inb_S1x64x16384_S1x64x16384_0_0_0

/-- The one store covers the output buffer. -/
theorem cover1_2 (p : Vec F S1x64x16384 .f32) (y : S1x64x16384.Idx) :
    ∃ pc ∈ ([⟨rOut1, p⟩] : List (View.Piece (Elt F) S1x64x16384 .f32)), y ∈ pc.1.set :=
  ⟨_, List.mem_singleton_self _, View.mem_set_unit_zero (S := S1x64x16384) zeros3 inb_S1x64x16384_S1x64x16384_0_0_0 y⟩

/-! ## The body's triple -/

set_option maxHeartbeats 1000000 in
/-- The body on whole staging memrefs — the two inputs' reading `x0` and `x1`, the output's at anything — runs to
    the continuation holding the inputs' as they were and the output's reading the payload of the two: the loads
    read the buffers whole, the output's loaded value is dropped, and the one store overwrites the whole buffer. -/
theorem sound_kernel1 (c : Dev nD) (E : Set ℕ) (i : grid1.Coords) (arg2 : Memref sig .tc .vmem S1x64x64 .f32) (harg2 : arg2.IsWhole)
    (arg3 : Memref sig .tc .vmem S1x64x16384 .f32) (harg3 : arg3.IsWhole) (arg4 : Memref sig .tc .vmem S1x64x16384 .f32) (harg4 : arg4.IsWhole)
    (x0 : Vec F S1x64x64 .f32) (x1 : Vec F S1x64x16384 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k1_pay1 x0 x1)) -∗ K ⟨⟩))
      ⊢ wp frame (wpE (defs₀ (F := F)) Variants.none c none) E (cc1__output_kernel i arg2 harg2 arg3 harg3 arg4 harg4) K := by
  simp only [cc1__output_kernel_eq_skeleton]; unfold cc1__output_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover1_2 _),
    View.canon_unit_zero (S := S1x64x16384) zeros3 inb_S1x64x16384_S1x64x16384_0_0_0]
  simp only [View.readAt_eq_ld, View.ld_unit_zero (S := S1x64x64) zeros3 inb_S1x64x64_S1x64x64_0_0_0,
    View.ld_unit_zero (S := S1x64x16384) zeros3 inb_S1x64x16384_S1x64x16384_0_0_0]

/-! ## The body obligation, at a generic point -/

/-- What the body is called with at point `t`: the invariant, what the core owes, and each window's current staging
    buffer — the inputs' and the output's at what the pipeline left in them. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns: the same, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second pipeline at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/- The whole run of @main: two reshapes, the attention-logits pipeline, the output pipeline, a last reshape.
   The contents of every unscoped buffer at each boundary between these four items are written as a fold from the
   launch memory; each pipeline's proof data are taken at the contents its region is entered from; the run ends with
   every unscoped buffer at the last boundary's contents, from which the frame claim (the argument ends as launched)
   and the value of the result are read. -/
import proofs.«113237_j50362786513234_1_alg».proof.Proof.IdealR0
import proofs.«113237_j50362786513234_1_alg».proof.Proof.IdealR1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the two reshapes of the argument (the first pipeline's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first pipeline's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second pipeline's exit (it is entered right after the first): its arrays at what its write-backs leave. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape (the return). -/
abbrev W4 : Dev nD → Valuation τ sig (Elt F) := fun c => StableHlo.after hostOps2 (W3 m ρ c)

/-! ## The argument ends as launched: no reshape writes it and no pipeline stages it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.reshape_writes, Finset.mem_singleton]
          exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

/-! ## What the value of the result is read from -/

/-- The result's array of the second pipeline at its exit. -/
theorem W3_main_v3 (c : Dev nD) : W3 m ρ c (Proc.devRef .tc main_v3) = (dat1 (V2 m ρ) c).arrAt 2 cfg1.N :=
  W3_arr m ρ c 2
/-- The attention array the second pipeline is entered at is what the first leaves. -/
theorem V2_main_v2 (c : Dev nD) : V2 m ρ c main_v2 = (dat0 (V1 m ρ) c).arrAt 2 cfg0.N :=
  W2_arr m ρ c 2
/-- The query array the second pipeline is entered at is the one the first was entered at. -/
theorem V2_main_v0 (c : Dev nD) : V2 m ρ c main_v0 = V1 m ρ c main_v0 :=
  (W2_arr m ρ c 0).trans (((dat0 (V1 m ρ) c).arrAt_in 0 rfl _).trans (A_eq0 (V1 m ρ) c 0))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W4 m ρ c) ∗ ∃ r, prngReg c r)

/-! ## The pipelines as items of the run -/

set_option backward.isDefEq.respectTransparency.types false in
/-- The first pipeline: entered from every unscoped buffer at `W1`, left at `W2`. Its arrays are split out of the
    unscoped buffers and put back at the exit contents; the generator register goes into the invariant and comes out;
    the accumulator's contents are forgotten at the exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    have h := hin0 (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pipeline: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its four items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final state holds each unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution of @main terminates, nothing faulting, and the argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W4_main_arg0 m ρ c)) (run_all m ρ)

end Cert.KernelIdeal.Hand

end
-- ==== Proof.Spec.lean ====
/- What the two programs compute, written once over the extended reals, index by index.

   From the input read as a query array `q` of shape [16, 64, 65536] and as a key array `kk` of shape [16, 65536, 64]
   (two reshapes of the same data): the logits `Σ_n q[b, c, n] · kk[b, n, d]`; each row's maximum taken from `-∞`;
   the exponentials of the logits less their row's maximum; the attention weights, each exponential divided by its row's
   sum; and the output `Σ_d attn[b, c, d] · q[b, d, n] + q[b, c, n]`, reshaped back to the input's shape. -/
import Idealize.ShloMosaic.PureOps.Ideal
import Idealize.ShloMosaic.Lib.ValueIdx
import Idealize.ShloMosaic.Lib.Pipeline.Value

noncomputable section

namespace Cert.Spec

open Idealize.ShloMosaic Idealize.ShloMosaic.ValueIdx
open scoped BigOperators

abbrev SX : Shape := ⟨4, ![16, 64, 256, 256]⟩
abbrev SQ : Shape := ⟨3, ![16, 64, 65536]⟩
abbrev SK : Shape := ⟨3, ![16, 65536, 64]⟩
abbrev SA : Shape := ⟨3, ![16, 64, 64]⟩

/-- The f32 word of `-∞`, from which the row maxima are taken. -/
abbrev negInf : EReal := Ideal.ofBits .f32 0xFF800000#32

/-- The logit of batch `b` at `(c, d)`: the query's row `c` against the key's column `d`, over all 65536 positions. -/
def logit (q : SQ.Idx → EReal) (kk : SK.Idx → EReal) (b : Fin 16) (c d : Fin 64) : EReal :=
  ∑ n : Fin 65536, q (ix3 b c n) * kk (ix3 b n d)

/-- A row's maximum, folded from `-∞` and then compared with `-∞` once more (as both programs do). -/
def rowMax (l : Fin 64 → EReal) : EReal :=
  max negInf ((Finset.univ : Finset (Fin 64)).fold max negInf l)

/-- The exponential of a row's entry less the row's maximum. -/
def expo (l : Fin 64 → EReal) (d : Fin 64) : EReal := Ideal.exp (l d - rowMax l)

/-- The attention weights: each row of exponentials divided by its sum. -/
def attn (q : SQ.Idx → EReal) (kk : SK.Idx → EReal) : SA.Idx → EReal := fun i =>
  Ideal.div (expo (logit q kk (i 0) (i 1)) (i 2)) (∑ d : Fin 64, expo (logit q kk (i 0) (i 1)) d)

/-- The weighted sum of the query's rows plus the query itself. -/
def out (a : SA.Idx → EReal) (q : SQ.Idx → EReal) : SQ.Idx → EReal := fun i =>
  (∑ d : Fin 64, a (ix3 (i 0) (i 1) d) * q (ix3 (i 0) d (i 2))) + q i

/-- The whole result from the input: both reshapes, the attention weights, the output, the reshape back. -/
def final (x : SX.Idx → EReal) (h1 : SX.ShapeCasts SQ) (h2 : SX.ShapeCasts SK) (h3 : SQ.ShapeCasts SX) : SX.Idx → EReal :=
  shapeCast SX (out (attn (shapeCast SQ x h1) (shapeCast SK x h2)) (shapeCast SQ x h1)) h3

end Cert.Spec

end
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.IdealValue0Acc.lean ====
/- The accumulator of the attention-logits pipeline at the last step of a batch holds the logits: the eight block
   products it has added up since its reset at the batch's first step are the eight stretches of the one sum over all
   65536 positions. -/
import proofs.«113237_j50362786513234_1_alg».proof.Proof.IdealR0
import proofs.«113237_j50362786513234_1_alg».proof.Proof.Spec
import proofs.«113237_j50362786513234_1_alg».proof.Proof.LibPlainMatmul
import Idealize.ShloMosaic.Lib.ValueLayout
import Idealize.ShloMosaic.Lib.Pipeline.Value
import Mathlib.Algebra.BigOperators.Fin

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand
open Cert.Spec Idealize.ShloMosaic.ValueIdx
open scoped BigOperators

variable (V : (c : Dev nD) → (b : Ref sig .tc) → Buf (Elt Ideal) ((c : Thread nD τ).loc b))

namespace Acc0

/-! ## The payloads at an index -/

/-- The reset value is the zero matrix. -/
theorem pay1_apply (p d : Fin 64) : k0_pay1 (F := Ideal) (ix2 p d) = 0 := by
  unfold k0_pay1
  rw [shapeCast_self]
  exact Ideal.ofBits_zero_f32

/-- The accumulation at `(p, d)`: what the accumulator held there plus the product of the query block's row `p` with the
    key block's column `d` over the block's 8192 positions (the two unit-axis casts only drop the leading 1, the format
    change is the identity on extended reals, and the matrix product starts from zero). -/
theorem pay2_apply (x0 : Vec Ideal S1x64x8192 .f32) (x1 : Vec Ideal S1x8192x64 .f32) (a : Vec Ideal S64x64 .f32) (p d : Fin 64) :
    k0_pay2 x0 x1 a (ix2 p d) = a (ix2 p d) + ∑ k : Fin 8192, x0 (ix3 0 p k) * x1 (ix3 0 k d) := by
  unfold k0_pay2
  rw [shapeCast_self, addf_apply,
    Cert.PlainMatmul.matmul_zero_apply dot_S64x8192_S8192x64_S64x64_1_0_0_1_n_n rfl rfl rfl rfl rfl rfl]
  simp only [truncf_apply, shapeCast_1ab_ab_apply]

/-! ## The two input blocks read off their arrays -/

/-- The printed index maps over the grid: at position `t` the query window sits at block `(t / 8, 0, t % 8)` and the key
    window at block `(t / 8, t % 8, 0)`. -/
theorem blocks_at : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = t.val % 8 ∧ win0_1.index t (2 : Fin 3) = 0 :=
  (by decide +kernel : ∀ t : Fin grid0.N, _)

/-- The query block at position `t`, read at `x`, is the query array at batch `t / 8`, the same row, and position
    `8192 (t % 8)` plus the position inside the block. -/
theorem qblk_apply (c : Dev nD) (t : Fin cfg0.N) (x : S1x64x8192.Idx) (i : S16x64x65536.Idx)
    (h0 : (i 0).val = t.val / 8) (h1 : (i 1).val = (x 1).val) (h2 : (i 2).val = 8192 * (t.val % 8) + (x 2).val) :
    (iblk0 (F := Ideal) V c 0 t : Vec Ideal S1x64x8192 .f32) x = (V c main_v0 : S16x64x65536.Idx → EReal) i := by
  obtain ⟨e0, e1, e2, -, -, -⟩ := blocks_at t
  unfold iblk0
  rw [View.read_apply]
  show V c main_v0 _ = V c main_v0 _
  congr 1
  funext a
  apply Fin.ext
  match a with
  | ⟨0, _⟩ => show win0_0.index t 0 * 1 + 1 * (x 0).val = (i 0).val; have hx : (x 0).val < 1 := (x 0).isLt; omega
  | ⟨1, _⟩ => show win0_0.index t 1 * 64 + 1 * (x 1).val = (i 1).val; omega
  | ⟨2, _⟩ => show win0_0.index t 2 * 8192 + 1 * (x 2).val = (i 2).val; omega

/-- The key block at position `t`, read at `x`, is the key array at batch `t / 8`, position `8192 (t % 8)` plus the
    position inside the block, and the same column. -/
theorem kblk_apply (c : Dev nD) (t : Fin cfg0.N) (x : S1x8192x64.Idx) (i : S16x65536x64.Idx)
    (h0 : (i 0).val = t.val / 8) (h1 : (i 1).val = 8192 * (t.val % 8) + (x 1).val) (h2 : (i 2).val = (x 2).val) :
    (iblk0 (F := Ideal) V c 1 t : Vec Ideal S1x8192x64 .f32) x = (V c main_v1 : S16x65536x64.Idx → EReal) i := by
  obtain ⟨-, -, -, e0, e1, e2⟩ := blocks_at t
  unfold iblk0
  rw [View.read_apply]
  show V c main_v1 _ = V c main_v1 _
  congr 1
  funext a
  apply Fin.ext
  match a with
  | ⟨0, _⟩ => show win0_1.index t 0 * 1 + 1 * (x 0).val = (i 0).val; have hx : (x 0).val < 1 := (x 0).isLt; omega
  | ⟨1, _⟩ => show win0_1.index t 1 * 8192 + 1 * (x 1).val = (i 1).val; omega
  | ⟨2, _⟩ => show win0_1.index t 2 * 64 + 1 * (x 2).val = (i 2).val; omega

/-! ## A logit's sum as eight stretches of 8192 positions -/

/-- Position `8192 s + k` of the 65536: offset `k` of stretch `s`. -/
def pos (s : Fin 8) (k : Fin 8192) : Fin 65536 := ⟨8192 * s.val + k.val, by omega⟩

/-- Stretch `s` of the logit at `(c, d)` of batch `b`: its 8192 terms from position `8192 s`. -/
def stretch (q : SQ.Idx → EReal) (kk : SK.Idx → EReal) (b : Fin 16) (p d : Fin 64) (s : Fin 8) : EReal :=
  ∑ k : Fin 8192, q (ix3 b p (pos s k)) * kk (ix3 b (pos s k) d)

/-- The 65536 positions are the eight stretches laid end to end. -/
def posEquiv : Fin 8 × Fin 8192 ≃ Fin 65536 where
  toFun sk := pos sk.1 sk.2
  invFun n := (⟨n.val / 8192, by have := n.isLt; omega⟩, ⟨n.val % 8192, by omega⟩)
  left_inv sk := by
    obtain ⟨s, k⟩ := sk
    have hk := k.isLt
    refine Prod.ext (Fin.ext ?_) (Fin.ext ?_)
    · show (8192 * s.val + k.val) / 8192 = s.val; omega
    · show (8192 * s.val + k.val) % 8192 = k.val; omega
  right_inv n := by
    refine Fin.ext ?_
    show 8192 * (n.val / 8192) + n.val % 8192 = n.val; omega

/-- A logit is the sum of its eight stretches. -/
theorem logit_eq_stretches (q : SQ.Idx → EReal) (kk : SK.Idx → EReal) (b : Fin 16) (p d : Fin 64) :
    logit q kk b p d = ∑ s : Fin 8, stretch q kk b p d s := by
  unfold logit stretch
  rw [← Equiv.sum_comp posEquiv, Fintype.sum_prod_type]
  rfl

/-! ## The accumulator along a batch -/

/-- One accumulation at a position of batch `b`, step `s`: stretch `s` of the logit is added to what was held. -/
theorem pay2_blocks (c : Dev nD) (t : Fin cfg0.N) (a : Vec Ideal S64x64 .f32) (b : Fin 16) (s : Fin 8)
    (hb : t.val / 8 = b.val) (hs : t.val % 8 = s.val) (p d : Fin 64) :
    k0_pay2 (iblk0 (F := Ideal) V c 0 t) (iblk0 (F := Ideal) V c 1 t) a (ix2 p d)
      = a (ix2 p d) + stretch (V c main_v0) (V c main_v1) b p d s := by
  rw [pay2_apply]
  unfold stretch
  congr 1
  refine Finset.sum_congr rfl fun k _ => ?_
  rw [qblk_apply V c t (ix3 0 p k) (ix3 b p (pos s k)) hb.symm rfl (by show 8192 * s.val + k.val = _; rw [hs]),
    kblk_apply V c t (ix3 0 k d) (ix3 b (pos s k) d) hb.symm (by show 8192 * s.val + k.val = _; rw [hs]) rfl]

/-- The stretches indexed by a natural number, zero past the eighth. -/
def stretchN (q : SQ.Idx → EReal) (kk : SK.Idx → EReal) (b : Fin 16) (p d : Fin 64) (s : ℕ) : EReal :=
  if hs : s < 8 then stretch q kk b p d ⟨s, hs⟩ else 0

/-- At step `j` of batch `b` the accumulator holds the first `j + 1` stretches of the batch's logits: reset and one
    stretch at step 0, one more stretch at each later step. -/
theorem acc0_upto (c : Dev nD) (b : Fin 16) (p d : Fin 64) : ∀ (j : ℕ) (hj : j < 8) (h : 8 * b.val + j < cfg0.N),
    acc0 (F := Ideal) V c (8 * b.val + j) h (ix2 p d)
      = ∑ s ∈ Finset.range (j + 1), stretchN (V c main_v0) (V c main_v1) b p d s
  | 0, hj, h => by
    have e := acc0_reset (F := Ideal) V c ⟨8 * b.val + 0, h⟩ (by show (8 * b.val + 0) % 8 = 0; omega)
    have e' : acc0 (F := Ideal) V c (8 * b.val + 0) h = _ := e
    rw [e', pay2_blocks V c ⟨8 * b.val + 0, h⟩ _ b ⟨0, hj⟩ (by show (8 * b.val + 0) / 8 = b.val; omega)
      (by show (8 * b.val + 0) % 8 = 0; omega), pay1_apply, zero_add, Finset.sum_range_one]
    unfold stretchN
    rw [dif_pos hj]
  | j + 1, hj, h => by
    have e := acc0_step (F := Ideal) V c ⟨8 * b.val + (j + 1), h⟩ (by show (8 * b.val + (j + 1)) % 8 ≠ 0; omega)
    have e' : acc0 (F := Ideal) V c (8 * b.val + (j + 1)) h
        = k0_pay2 (iblk0 (F := Ideal) V c 0 ⟨8 * b.val + (j + 1), h⟩) (iblk0 (F := Ideal) V c 1 ⟨8 * b.val + (j + 1), h⟩)
            (acc0 (F := Ideal) V c (8 * b.val + j) (by omega)) := e
    rw [e', pay2_blocks V c ⟨8 * b.val + (j + 1), h⟩ _ b ⟨j + 1, hj⟩ (by show (8 * b.val + (j + 1)) / 8 = b.val; omega)
      (by show (8 * b.val + (j + 1)) % 8 = j + 1; omega), acc0_upto c b p d j (by omega) (by omega),
      Finset.sum_range_succ _ (j + 1)]
    congr 1
    unfold stretchN
    rw [dif_pos hj]

end Acc0

open Acc0 in
/-- At the last step of batch `b` (grid position `8 b + 7`) the accumulator holds that batch's logits. -/
theorem acc0_last (c : Dev nD) (b : Fin 16) (h : 8 * b.val + 7 < cfg0.N) (p d : Fin 64) :
    acc0 (F := Ideal) V c (8 * b.val + 7) h (ix2 p d) = logit (V c main_v0) (V c main_v1) b p d := by
  rw [acc0_upto V c b p d 7 (by omega) h, logit_eq_stretches, Finset.sum_range]
  refine Finset.sum_congr rfl fun s _ => ?_
  unfold stretchN
  rw [dif_pos s.isLt]

end Cert.KernelIdeal.HandValue

end
-- ==== Proof.LibKeepdims.lean ====
/-
  Two readings at an index that a row reduction with kept dimensions meets, for any element type and any extents.

  A reduction over the columns of an `[a, b]` array leaves one value per row, an `[a]` vector. To use it against the
  `[a, b]` array again (subtract a row's maximum, divide by a row's sum) it is first cast to one column, `[a, 1]`,
  and the column is then repeated across the `b` columns. Read at `(p, q)` the result is the vector's entry `p`,
  whatever `q` is (`column_apply`). And the index that a reduction over axis 1 reads at reduced index `p` and
  coordinate `k` of the dropped axis is `(p, k)` (`lift_axis1`).
-/
import Idealize.ShloMosaic.Lib.Pipeline.Value
import Idealize.ShloMosaic.Lib.ValueIdx
import Idealize.ShloMosaic.PureOps.Reduce

noncomputable section

namespace Idealize.ShloMosaic.Keepdims

open Idealize.ShloMosaic Idealize.ShloMosaic.ValueIdx

variable {α : Type}

/-- An `[a]` vector cast to the column `[a, 1]` reads, at `(p, u)`, its entry `p`, whatever the unit coordinate. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[a, 1]` repeated across `b` columns reads, at `(p, q)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A per-row value with its dimension kept: the `[a]` vector cast to a column and repeated across `b` columns reads,
    at `(p, q)`, the vector's entry `p`. -/
theorem column_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) := by
  rw [broadcastTo_a1_ab_apply, shapeCast_a_a1_apply]

/-- A reduction of an `[a, b]` array over its columns reads, at row `p` and column coordinate `k`, the entry `(p, k)`. -/
theorem lift_axis1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Idealize.ShloMosaic.Keepdims

end
-- ==== Proof.IdealValue0Soft.lean ====
/- The softmax the first pipeline stores at a batch's last step, read at an index: the row's maximum from -∞, the
   exponentials of the row's entries less it, each divided by the row's sum. -/
import proofs.«113237_j50362786513234_1_alg».proof.Proof.Gen.KernelIdeal.Skeleton
import proofs.«113237_j50362786513234_1_alg».proof.Proof.Spec
import proofs.«113237_j50362786513234_1_alg».proof.Proof.LibKeepdims
import Idealize.ShloMosaic.Lib.ValueLayout
import Idealize.ShloMosaic.PureOps.Ideal.Laws

noncomputable section

namespace Cert.KernelIdeal.HandValue

open Idealize.ShloMosaic Idealize.ShloMosaic.TcCoe Idealize.ShloMosaic.ValueIdx
open Cert.KernelIdeal Cert.KernelIdeal.Gen Cert.Spec
open scoped BigOperators

/-! ## The two row reductions at a row -/

/-- The maximum over the columns, folded from `-∞`, read at row `p`: the fold of `max` over that row's entries. -/
theorem rowFold_at (a : Vec Ideal S64x64 .f32) (h : S64x64.Reduces [1] S64) (hφ : FKind.Formats .f32)
    (hacc : (0xFF800000#32 : BitVec FTy.f32.bits) = FKind.maximumf.neutral .f32 hφ) (p : Fin 64) :
    multiReduction (F := Ideal) .maximumf [1] S64 a 0xFF800000#32 h hφ hacc (ix1 p)
      = (Finset.univ : Finset (Fin 64)).fold max negInf (fun d' => a (ix2 p d')) := by
  refine (Ideal.multiReduction_maximumf_single a _ h hφ hacc (ix1 p)).trans ?_
  have hl : (a ∘ h.lift (ix1 p)) = fun d' : Fin 64 => a (ix2 p d') :=
    funext fun k => congrArg a (Keepdims.lift_axis1 h p k)
  rw [hl]; rfl

/-- The sum over the columns read at row `p`: the sum of that row's entries. -/
theorem rowSum_at (x : Vec Ideal S64x64 .f32) (h : S64x64.Reduces [1] S64) (hφ : FKind.Formats .f32)
    (hacc : (0x00000000#32 : BitVec FTy.f32.bits) = FKind.add.neutral .f32 hφ) (p : Fin 64) :
    multiReduction (F := Ideal) .add [1] S64 x 0x00000000#32 h hφ hacc (ix1 p) = ∑ d' : Fin 64, x (ix2 p d') := by
  refine (Ideal.multiReduction_add_single x _ h hφ hacc (ix1 p)).trans ?_
  exact Finset.sum_congr rfl fun k _ => congrArg x (Keepdims.lift_axis1 h p k)

/-! ## The stages of the softmax -/

/-- The vector of row maxima: each row's fold from `-∞`, compared with `-∞` once more. -/
def mx (a : Vec Ideal S64x64 .f32) : FVec Ideal S64 .f32 :=
  maximumf (broadcast S64 (Scalar.ofBits (F := Ideal) .f32 0xFF800000#32))
    (multiReduction (F := Ideal) .maximumf [1] S64 a 0xFF800000#32 reduces_S64x64_S64 (.inl rfl) rfl)

/-- The exponentials of the entries less their row's maximum. -/
def ex (a : Vec Ideal S64x64 .f32) : FVec Ideal S64x64 .f32 :=
  exp (subf a (broadcastTo S64x64 (shapeCast S64x1 (mx a) shapeCasts_S64_S64x1) broadcasts_S64x1_S64x64))

/-- The stored block is the exponentials, each divided by its row's sum, with a leading unit axis added. -/
theorem pay3_eq (a : Vec Ideal S64x64 .f32) :
    k0_pay3 (F := Ideal) a
      = shapeCast S1x64x64 (divf (ex a) (broadcastTo S64x64 (shapeCast S64x1
          (multiReduction (F := Ideal) .add [1] S64 (ex a) 0x00000000#32 reduces_S64x64_S64 (.inl rfl) rfl)
          shapeCasts_S64_S64x1) broadcasts_S64x1_S64x64)) shapeCasts_S64x64_S1x64x64 := rfl

/-- Row `p`'s maximum. -/
theorem mx_apply (a : Vec Ideal S64x64 .f32) (p : Fin 64) : mx a (ix1 p) = rowMax (fun d' => a (ix2 p d')) := by
  unfold mx rowMax
  refine (maximumf_apply _ _ (ix1 p)).trans ?_
  refine congrArg₂ max ?_ (rowFold_at a _ _ _ p)
  exact (broadcast_apply _ (ix1 p)).trans (Ideal.ofBits_def _)

/-- The exponential at `(p, d)`. -/
theorem ex_apply (a : Vec Ideal S64x64 .f32) (p d : Fin 64) : ex a (ix2 p d) = expo (fun d' => a (ix2 p d')) d := by
  unfold ex expo
  show Ideal.exp (a (ix2 p d) - broadcastTo S64x64 (shapeCast S64x1 (mx a) shapeCasts_S64_S64x1) broadcasts_S64x1_S64x64 (ix2 p d)) = _
  rw [Keepdims.column_apply, mx_apply]

/-- The stored block at `(0, p, d)` is the softmax of row `p` of the accumulator at `d`. -/
theorem pay3_apply (a : Vec Ideal S64x64 .f32) (p d : Fin 64) :
    k0_pay3 (F := Ideal) a (ix3 (0 : Fin 1) p d)
      = Ideal.div (expo (fun d' => a (ix2 p d')) d) (∑ d' : Fin 64, expo (fun d'' => a (ix2 p d'')) d') := by
  rw [pay3_eq]
  refine (shapeCast_ab_1ab_apply _ _ (0 : Fin 1) p d).trans ?_
  show Ideal.div (ex a (ix2 p d)) (broadcastTo S64x64 (shapeCast S64x1
      (multiReduction (F := Ideal) .add [1] S64 (ex a) 0x00000000#32 reduces_S64x64_S64 (.inl rfl) rfl)
      shapeCasts_S64_S64x1) broadcasts_S64x1_S64x64 (ix2 p d)) = _
  have hs : broadcastTo S64x64 (shapeCast S64x1
      (multiReduction (F := Ideal) .add [1] S64 (ex a) 0x00000000#32 reduces_S64x64_S64 (.inl rfl) rfl)
      shapeCasts_S64_S64x1) broadcasts_S64x1_S64x64 (ix2 p d) = ∑ d' : Fin 64, expo (fun d'' => a (ix2 p d'')) d' :=
    (Keepdims.column_apply _ _ _ p d).trans
      ((rowSum_at (ex a) _ _ _ p).trans (Finset.sum_congr rfl fun d' _ => ex_apply a p d'))
  exact congrArg₂ Ideal.div (ex_apply a p d) hs

end Cert.KernelIdeal.HandValue

end
-- ==== Proof.IdealValue0.lean ====
/- The attention array the first pipeline leaves: at the last step of each batch the row softmax of the logits is
   written back to that batch's block, and the sixteen blocks cover the array.

   At a grid point `t` with `t % 8 = 7` the result window's block index is `(t / 8, 0, 0)`: the block's entry `(0, p, d)`
   is the array's entry `(t / 8, p, d)`. What is written back there is the softmax of the accumulator's row `p` at `d`,
   and the accumulator at the last step of batch `t / 8` holds that batch's logits, so the block written back is the
   block of the attention weights. Index `(b, p, d)` of the array lies in the block of the point `8 b + 7`. -/
import proofs.«113237_j50362786513234_1_alg».proof.Proof.IdealValue0Acc
import proofs.«113237_j50362786513234_1_alg».proof.Proof.IdealValue0Soft
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand
open Cert.Spec Idealize.ShloMosaic.ValueIdx
open scoped BigOperators

variable (V : (c : Dev nD) → (b : Ref sig .tc) → Buf (Elt Ideal) ((c : Thread nD τ).loc b))

namespace Attn0

/-- The result window's block index at a grid point: the batch (the point's position divided by the eight steps of a
    batch) on the first axis, zero on the other two. -/
theorem attn_block_index : ∀ t : Fin cfg0.N, win0_2.index t (0 : Fin 3) = t.val / 8
    ∧ win0_2.index t (1 : Fin 3) = 0 ∧ win0_2.index t (2 : Fin 3) = 0 :=
  (by decide +kernel : ∀ t : Fin grid0.N, _)

/-- What a batch's last step writes back is that batch's block of the attention weights. -/
theorem flushed_eq (c : Dev nD) (t : Fin cfg0.N) (hf : (cfg0.win 2).flush t = true) :
    (dat0 (F := Ideal) V c).flushed 2 t
      = ((cfg0.win 2).blk t).view.read (Elt Ideal) (attn (V c main_v0) (V c main_v1)) := by
  have h7 : t.val % 8 = 7 := (flush0_2 t).mp hf
  obtain ⟨e0, e1, e2⟩ := attn_block_index t
  show (cfg0.win 2).cut (grid0.coords t) ((dat0 V c).after 2 t) = _
  rw [after0_2]
  funext j
  obtain ⟨u, p, d, rfl⟩ : ∃ (u : Fin 1) (p d : Fin 64), j = ix3 u p d := ⟨j 0, j 1, j 2, eq_ix3 j⟩
  have hb : t.val / 8 < 16 := by have := t.isLt; have hN : cfg0.N = 128 := N_0; omega
  rw [View.read_apply]
  refine Eq.trans ?_ (cast_eq _ _).symm
  -- inside the block the index is (0, p, d): the block is whole, nothing is cut
  have hx : (cfg0.win 2).xinj (grid0.coords t) (ix3 u p d) = ix3 (0 : Fin 1) p d := by
    funext a; apply Fin.ext
    match a with
    | ⟨0, _⟩ => show u.val = 0; omega
    | ⟨1, _⟩ => rfl
    | ⟨2, _⟩ => rfl
  -- in the array it is (b, p, d), b the batch
  have hemb : ((cfg0.win 2).blk t).view.emb (ix3 u p d) = ix3 (⟨t.val / 8, hb⟩ : Fin 16) p d := by
    funext a; apply Fin.ext
    match a with
    | ⟨0, _⟩ => show win0_2.index t (0 : Fin 3) * 1 + 1 * u.val = t.val / 8; have := u.isLt; omega
    | ⟨1, _⟩ => show win0_2.index t (1 : Fin 3) * 64 + 1 * p.val = p.val; omega
    | ⟨2, _⟩ => show win0_2.index t (2 : Fin 3) * 64 + 1 * d.val = d.val; omega
  show k0_pay3 (acc0 V c t.val t.isLt) ((cfg0.win 2).xinj (grid0.coords t) (ix3 u p d)) = _
  rw [hx, hemb, pay3_apply]
  -- the accumulator's row p at the batch's last step is the logits' row
  have hacc : ∀ (n : ℕ) (hn : n < cfg0.N), n = 8 * (t.val / 8) + 7 → ∀ d' : Fin 64,
      acc0 V c n hn (ix2 p d') = logit (V c main_v0) (V c main_v1) ⟨t.val / 8, hb⟩ p d' := by
    rintro n hn rfl d'
    exact acc0_last V c ⟨t.val / 8, hb⟩ hn p d'
  have hrow : (fun d' : Fin 64 => acc0 V c t.val t.isLt (ix2 p d'))
      = logit (V c main_v0) (V c main_v1) ⟨t.val / 8, hb⟩ p :=
    funext fun d' => hacc t.val t.isLt (by omega) d'
  rw [hrow]
  rfl

/-- An index of the array is in a point's block iff each coordinate is in the block's range on its axis. -/
theorem mem_attn_block (t : Fin cfg0.N) (i : S16x64x64.Idx) :
    i ∈ ((cfg0.win 2).blk t).view.set ↔ ∀ a : Fin 3, win0_2.index t a * S1x64x64.size a ≤ (i a).val
      ∧ (i a).val < win0_2.index t a * S1x64x64.size a + S1x64x64.size a := by
  show i ∈ ((View.whole main_v2).slice (win0_2.rect t)).set ↔ _
  rw [View.set_slice_whole, Rect.mem_set_unit]
  exact Iff.rfl

/-- Every index of the array lies in the block some batch's last step writes back: index `(b, p, d)` in that of
    the point `8 b + 7`. -/
theorem attn_cover (i : S16x64x64.Idx) :
    ∃ t : Fin cfg0.N, (cfg0.win 2).flush t = true ∧ i ∈ ((cfg0.win 2).blk t).view.set := by
  have hN : cfg0.N = 128 := N_0
  have h0 : (i 0).val < 16 := (i 0).isLt
  have h1 : (i 1).val < 64 := (i 1).isLt
  have h2 : (i 2).val < 64 := (i 2).isLt
  obtain ⟨t, et⟩ : ∃ t : Fin cfg0.N, t.val = 8 * (i 0).val + 7 := ⟨⟨8 * (i 0).val + 7, by omega⟩, rfl⟩
  refine ⟨t, (flush0_2 t).mpr (by omega), ?_⟩
  rw [mem_attn_block]
  obtain ⟨e0, e1, e2⟩ := attn_block_index t
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 64 ≤ (i 1).val ∧ (i 1).val < win0_2.index t (1 : Fin 3) * 64 + 64
    omega
  | ⟨2, _⟩ =>
    show win0_2.index t (2 : Fin 3) * 64 ≤ (i 2).val ∧ (i 2).val < win0_2.index t (2 : Fin 3) * 64 + 64
    omega

end Attn0

/-- The first pipeline's result array at its exit is the attention weights of the two arrays it was entered at. -/
theorem attn_value (c : Dev nD) :
    (dat0 (F := Ideal) V c).arrAt 2 cfg0.N = attn (V c main_v0) (V c main_v1) :=
  (dat0 (F := Ideal) V c).arrAt_eq_of_cover 2 (attn (V c main_v0) (V c main_v1)) (Attn0.flushed_eq V c)
    Attn0.attn_cover

end Cert.KernelIdeal.HandValue

end
-- ==== Proof.IdealValue1.lean ====
/- The output array the second pipeline leaves: each grid point writes back the product of its batch's attention block
   with a 16384-wide stretch of the query plus that stretch, and the 64 blocks cover the array. -/
import proofs.«113237_j50362786513234_1_alg».proof.Proof.IdealR1
import proofs.«113237_j50362786513234_1_alg».proof.Proof.Spec
import proofs.«113237_j50362786513234_1_alg».proof.Proof.LibPlainMatmul
import Idealize.ShloMosaic.Lib.ValueLayout
import Idealize.ShloMosaic.Lib.ValueIdx
import Idealize.ShloMosaic.Lib.Pipeline.Value

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand
open Cert.Spec Idealize.ShloMosaic.ValueIdx
open scoped BigOperators

variable (V : (c : Dev nD) → (b : Ref sig .tc) → Buf (Elt Ideal) ((c : Thread nD τ).loc b))

namespace Out1

/-! ## The body's payload at an index -/

/-- The payload at `(·, p, n)`: row `p` of the attention block against column `n` of the query block, summed over
    the 64 inner positions, plus the query block's own entry. The casts drop and restore the leading unit axis, the
    truncations are the identity on the extended reals, and the product is taken into the zero accumulator. -/
theorem pay1_apply (x0 : Vec Ideal S1x64x64 .f32) (x1 : Vec Ideal S1x64x16384 .f32) (u : Fin 1) (p : Fin 64) (n : Fin 16384) :
    k1_pay1 x0 x1 (ix3 u p n) = (∑ d : Fin 64, x0 (ix3 0 p d) * x1 (ix3 0 d n)) + x1 (ix3 0 p n) := by
  unfold k1_pay1
  rw [shapeCast_ab_1ab_apply, addf_apply, Cert.PlainMatmul.matmul_zero_apply _ rfl rfl rfl rfl rfl rfl]
  simp only [truncf_apply, shapeCast_1ab_ab_apply]

/-! ## Where a grid point's blocks sit in the arrays -/

/-- The printed index maps over the 64 grid points: point `t` works on batch `t / 4`; the attention block is the
    whole 64 x 64 slab of that batch; the query block and the output block are stretch `t % 4` of the long axis. -/
theorem index_facts : ∀ t : Fin cfg1.N,
    win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = 0 ∧ win1_1.index t (2 : Fin 3) = t.val % 4
    ∧ win1_2.index t (0 : Fin 3) = t.val / 4 ∧ win1_2.index t (1 : Fin 3) = 0 ∧ win1_2.index t (2 : Fin 3) = t.val % 4 :=
  (by decide +kernel : ∀ t : Fin grid1.N, _)

theorem point_lt (t : Fin cfg1.N) : t.val < 64 := lt_of_lt_of_eq t.isLt N_1

/-- The batch point `t` works on. -/
def batchOf (t : Fin cfg1.N) : Fin 16 := ⟨t.val / 4, by have := point_lt t; omega⟩

/-- The array's position on the long axis of position `n` of point `t`'s stretch. -/
def colOf (t : Fin cfg1.N) (n : Fin 16384) : Fin 65536 := ⟨16384 * (t.val % 4) + n.val, by have := n.isLt; omega⟩

/-- The attention block at point `t`, read off the attention array. -/
theorem attn_block_apply (c : Dev nD) (t : Fin cfg1.N) (p d : Fin 64) :
    iblk1 V c 0 t (ix3 0 p d) = V c main_v2 (ix3 (batchOf t) p d) := by
  obtain ⟨e0, e1, e2, -⟩ := index_facts t
  show V c main_v2 (((cfg1.win 0).blk t).view.emb (ix3 0 p d)) = V c main_v2 (ix3 (batchOf t) p d)
  refine congrArg _ ?_
  funext a; apply Fin.ext
  match a with
  | ⟨0, _⟩ => show win1_0.index t (0 : Fin 3) * 1 + 1 * 0 = t.val / 4; omega
  | ⟨1, _⟩ => show win1_0.index t (1 : Fin 3) * 64 + 1 * p.val = p.val; omega
  | ⟨2, _⟩ => show win1_0.index t (2 : Fin 3) * 64 + 1 * d.val = d.val; omega

/-- The query block at point `t`, read off the query array. -/
theorem query_block_apply (c : Dev nD) (t : Fin cfg1.N) (d : Fin 64) (n : Fin 16384) :
    iblk1 V c 1 t (ix3 0 d n) = V c main_v0 (ix3 (batchOf t) d (colOf t n)) := by
  obtain ⟨-, -, -, e0, e1, e2, -⟩ := index_facts t
  show V c main_v0 (((cfg1.win 1).blk t).view.emb (ix3 0 d n)) = V c main_v0 (ix3 (batchOf t) d (colOf t n))
  refine congrArg _ ?_
  funext a; apply Fin.ext
  match a with
  | ⟨0, _⟩ => show win1_1.index t (0 : Fin 3) * 1 + 1 * 0 = t.val / 4; omega
  | ⟨1, _⟩ => show win1_1.index t (1 : Fin 3) * 64 + 1 * d.val = d.val; omega
  | ⟨2, _⟩ => show win1_1.index t (2 : Fin 3) * 16384 + 1 * n.val = 16384 * (t.val % 4) + n.val; omega

/-- Where position `(u, p, n)` of point `t`'s output block sits in the result array. -/
theorem out_block_emb (t : Fin cfg1.N) (u : Fin 1) (p : Fin 64) (n : Fin 16384) :
    (((cfg1.win 2).blk t).view.emb (ix3 u p n) : SQ.Idx) = ix3 (batchOf t) p (colOf t n) := by
  obtain ⟨-, -, -, -, -, -, e0, e1, e2⟩ := index_facts t
  have hu : u.val < 1 := u.isLt
  funext a; apply Fin.ext
  match a with
  | ⟨0, _⟩ => show win1_2.index t (0 : Fin 3) * 1 + 1 * u.val = t.val / 4; omega
  | ⟨1, _⟩ => show win1_2.index t (1 : Fin 3) * 64 + 1 * p.val = p.val; omega
  | ⟨2, _⟩ => show win1_2.index t (2 : Fin 3) * 16384 + 1 * n.val = 16384 * (t.val % 4) + n.val; omega

/-! ## What every point writes back -/

/-- Point `t` writes back its block of the output function of the attention array and the query array. -/
theorem flushed_eq (c : Dev nD) (t : Fin cfg1.N) :
    (dat1 (F := Ideal) V c).flushed 2 t = ((cfg1.win 2).blk t).view.read (Elt Ideal) (out (V c main_v2) (V c main_v0)) := by
  show (cfg1.win 2).cut (grid1.coords t) ((dat1 (F := Ideal) V c).after 2 t) = _
  rw [after1_2]
  funext j
  obtain ⟨u, p, n, rfl⟩ : ∃ (u : Fin 1) (p : Fin 64) (n : Fin 16384), j = ix3 u p n := ⟨j 0, j 1, j 2, eq_ix3 j⟩
  show k1_pay1 (iblk1 V c 0 t) (iblk1 V c 1 t) (ix3 u p n)
    = out (V c main_v2) (V c main_v0) (((cfg1.win 2).blk t).view.emb (ix3 u p n))
  rw [out_block_emb, pay1_apply]
  simp only [attn_block_apply, query_block_apply]
  rfl

/-! ## The blocks cover the result array -/

/-- An index of the result array is in point `t`'s block iff each coordinate is in the block's range on its axis. -/
theorem mem_blk (t : Fin cfg1.N) (i : S16x64x65536.Idx) :
    i ∈ ((cfg1.win 2).blk t).view.set ↔ ∀ a : Fin 3, win1_2.index t a * S1x64x16384.size a ≤ (i a).val
      ∧ (i a).val < win1_2.index t a * S1x64x16384.size a + S1x64x16384.size a := by
  show i ∈ ((View.whole main_v3).slice (win1_2.rect t)).set ↔ _
  rw [View.set_slice_whole, Rect.mem_set_unit]
  exact Iff.rfl

/-- Index `(b, p, m)` is in the block of point `4 b + m / 16384`, which writes back like every point. -/
theorem cover (i : S16x64x65536.Idx) :
    ∃ t : Fin cfg1.N, (cfg1.win 2).flush t = true ∧ i ∈ ((cfg1.win 2).blk t).view.set := by
  have h0 : (i 0).val < 16 := (i 0).isLt
  have h1 : (i 1).val < 64 := (i 1).isLt
  have h2 : (i 2).val < 65536 := (i 2).isLt
  obtain ⟨t, ht⟩ : ∃ t : Fin cfg1.N, t.val = 4 * (i 0).val + (i 2).val / 16384 :=
    ⟨⟨4 * (i 0).val + (i 2).val / 16384, by rw [show cfg1.N = 64 from N_1]; omega⟩, rfl⟩
  obtain ⟨-, -, -, -, -, -, e0, e1, e2⟩ := index_facts t
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 64 ≤ (i 1).val ∧ (i 1).val < win1_2.index t (1 : Fin 3) * 64 + 64; omega
  | ⟨2, _⟩ => show win1_2.index t (2 : Fin 3) * 16384 ≤ (i 2).val ∧ (i 2).val < win1_2.index t (2 : Fin 3) * 16384 + 16384; omega

end Out1

/-- The second pipeline's result array at its exit, from the attention array and the query array it was entered at:
    every point writes back its block of the output function, and the blocks cover the array. -/
theorem out_value (c : Dev nD) :
    (dat1 (F := Ideal) V c).arrAt 2 cfg1.N = out (V c main_v2) (V c main_v0) :=
  (dat1 (F := Ideal) V c).arrAt_eq_of_cover 2 (out (V c main_v2) (V c main_v0)) (fun t _ => Out1.flushed_eq V c t) Out1.cover

end Cert.KernelIdeal.HandValue

end
-- ==== Proof.KernelValue.lean ====
/- The result of the two pipelines as a function of the argument: the last reshape of the second pipeline's output
   array, which is the specification's output of the first pipeline's attention array and the query array, themselves
   the specification's functions of the two reshapes of the argument. -/
import proofs.«113237_j50362786513234_1_alg».proof.Proof.IdealRun
import proofs.«113237_j50362786513234_1_alg».proof.Proof.IdealValue0
import proofs.«113237_j50362786513234_1_alg».proof.Proof.IdealValue1
import Idealize.ShloMosaic.Lib.StableHlo.Run

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand
open Cert.Spec Idealize.ShloMosaic.ValueIdx
open scoped BigOperators

variable (m : (ℓ : Loc nD τ sig) → Buf (Elt Ideal) ℓ) (ρ : Dev nD → PrngReg)

/-- The query array the first pipeline is entered at is the argument reshaped to [16, 64, 65536]. -/
theorem V1_main_v0 (c : Dev nD) :
    V1 m ρ c main_v0 = shapeCast _ (m ((c : Thread nD τ).loc main_arg0)) shapeCasts_S16x64x256x256_S16x64x65536 := by
  show StableHlo.after hostOps0 (W0 m ρ c) (Proc.devRef .tc main_v0) = _
  after_results
  rfl

/-- The key array the first pipeline is entered at is the argument reshaped to [16, 65536, 64]. -/
theorem V1_main_v1 (c : Dev nD) :
    V1 m ρ c main_v1 = shapeCast _ (m ((c : Thread nD τ).loc main_arg0)) shapeCasts_S16x64x256x256_S16x65536x64 := by
  show StableHlo.after hostOps0 (W0 m ρ c) (Proc.devRef .tc main_v1) = _
  after_results
  rfl

/-- The result is the second pipeline's output array reshaped to the argument's shape. -/
theorem W4_main_v4 (c : Dev nD) :
    W4 m ρ c (Proc.devRef .tc main_v4)
      = shapeCast _ (W3 m ρ c (Proc.devRef .tc main_v3)) shapeCasts_S16x64x65536_S16x64x256x256 := by
  show StableHlo.after hostOps2 (W3 m ρ c) (Proc.devRef .tc main_v4) = _
  after_results
  rfl

/-- THE RESULT of the idealized kernel program, as the specification's function of the argument. -/
theorem result_value (c : Dev nD) :
    W4 m ρ c (Proc.devRef .tc main_v4)
      = Cert.Spec.final (m ((c : Thread nD τ).loc main_arg0)) shapeCasts_S16x64x256x256_S16x64x65536
          shapeCasts_S16x64x256x256_S16x65536x64 shapeCasts_S16x64x65536_S16x64x256x256 := by
  rw [W4_main_v4, W3_main_v3, out_value, V2_main_v2, V2_main_v0, attn_value, V1_main_v0, V1_main_v1]
  rfl

end Cert.KernelIdeal.HandValue

end
-- ==== Proof.RefValue.lean ====
/- The reference's result, read one operation at a time, is the specification's function of the input. -/
import proofs.«113237_j50362786513234_1_alg».proof.Proof.Gen.ReferenceIdeal.Read
import proofs.«113237_j50362786513234_1_alg».proof.Proof.Spec
import Idealize.ShloMosaic.PureOps.Reduce

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read
open scoped BigOperators

/-! ## The logits

The first contraction reads the query at (b, c, n) and the key at (b, n, d). -/

/-- The query's index under the first contraction. -/
theorem lidx_logit (b : Fin 16) (c d : Fin 64) (n : Fin 65536) : lidx_main_v2 (ix3 b c d) n = ix3 b c n :=
  funext fun a => Fin.ext (by match a with | ⟨0, _⟩ => rfl | ⟨1, _⟩ => rfl | ⟨2, _⟩ => rfl)

/-- The key's index under the first contraction. -/
theorem ridx_logit (b : Fin 16) (c d : Fin 64) (n : Fin 65536) : ridx_main_v2 (ix3 b c d) n = ix3 b n d :=
  funext fun a => Fin.ext (by match a with | ⟨0, _⟩ => rfl | ⟨1, _⟩ => rfl | ⟨2, _⟩ => rfl)

/-- The first contraction at (b, c, d) is the specification's logit of the two reshaped inputs. -/
theorem logit_eq (x0 : (⟨S16x64x256x256, .f32⟩ : BufTy).Contents (Elt Ideal)) (b : Fin 16) (c d : Fin 64) :
    val_main_v2 (F := Ideal) x0 (ix3 b c d)
      = Cert.Spec.logit (val_main_v0 (F := Ideal) x0) (val_main_v1 (F := Ideal) x0) b c d := by
  rw [val_main_v2_apply]
  unfold Cert.Spec.logit
  refine Finset.sum_congr rfl fun n _ => ?_
  rw [lidx_logit, ridx_logit]

/-- So the row (b, c) of the first contraction is the specification's row of logits. -/
theorem logit_row (x0 : (⟨S16x64x256x256, .f32⟩ : BufTy).Contents (Elt Ideal)) (b : Fin 16) (c : Fin 64) :
    (fun d : Fin 64 => val_main_v2 (F := Ideal) x0 (ix3 b c d))
      = Cert.Spec.logit (val_main_v0 (F := Ideal) x0) (val_main_v1 (F := Ideal) x0) b c :=
  funext fun d => logit_eq x0 b c d

/-! ## The row maxima -/

/-- The index a reduction over the last axis of a [16, 64, 64] array reads at row (b, c) and coordinate k. -/
theorem lift_last (h : S16x64x64.Reduces [2] S16x64) (b : Fin 16) (c : Fin 64) (k : Fin (S16x64x64.size 2)) :
    h.lift (ix2 b c) k = ix3 b c (⟨k.val, k.isLt⟩ : Fin 64) := by
  funext a; apply Fin.ext
  match a with | ⟨0, _⟩ => rfl | ⟨1, _⟩ => rfl | ⟨2, _⟩ => rfl

/-- The maximum-reduction of an array over its last axis, from the word of minus infinity, is at row (b, c) the fold
    of the maximum over that row from minus infinity. -/
theorem reduce_max_row (y : (⟨S16x64x64, .f32⟩ : BufTy).Contents (Elt Ideal)) (b : Fin 16) (c : Fin 64) :
    (Host.reduce (FloatOps.maximumf (F := Ideal) (φ := .f32)) y (val_main_cst (F := Ideal)) reducesTo_S16x64x64_S16x64_d2 h_S_ :
        S16x64.Idx → EReal) (ix2 b c)
      = (Finset.univ : Finset (Fin 64)).fold max Cert.Spec.negInf (fun d : Fin 64 => y (ix3 b c d)) := by
  have h : S16x64x64.Reduces [2] S16x64 := by decide
  rw [Host.reduce_eq_fold_single (FloatOps.maximumf (F := Ideal) (φ := .f32)) y _ reducesTo_S16x64x64_S16x64_d2 h h_S_]
  have hf : (y ∘ h.lift (ix2 b c)) = fun d : Fin 64 => y (ix3 b c d) := funext fun k => congrArg y (lift_last h b c k)
  exact congrArg (fun f => Finset.fold max Cert.Spec.negInf f (Finset.univ : Finset (Fin 64))) hf

/-- The reference's row maximum at (b, c): the fold over the row of logits. -/
theorem fold_eq (x0 : (⟨S16x64x256x256, .f32⟩ : BufTy).Contents (Elt Ideal)) (b : Fin 16) (c : Fin 64) :
    val_main_v3 (F := Ideal) x0 (ix2 b c)
      = (Finset.univ : Finset (Fin 64)).fold max Cert.Spec.negInf
          (Cert.Spec.logit (val_main_v0 (F := Ideal) x0) (val_main_v1 (F := Ideal) x0) b c) := by
  unfold val_main_v3
  rw [reduce_max_row, logit_row]

/-- Compared once more with minus infinity it is the specification's row maximum. -/
theorem rowMax_eq (x0 : (⟨S16x64x256x256, .f32⟩ : BufTy).Contents (Elt Ideal)) (b : Fin 16) (c : Fin 64) :
    val_main_v5 (F := Ideal) x0 (ix2 b c)
      = Cert.Spec.rowMax (Cert.Spec.logit (val_main_v0 (F := Ideal) x0) (val_main_v1 (F := Ideal) x0) b c) := by
  rw [val_main_v5_apply, val_main_v4_apply, val_main_cst_0_apply, fold_eq, Ideal.maximumf_def, Ideal.ofBits_def]
  unfold Cert.Spec.rowMax
  rfl

/-- A per-row value kept as a column and repeated along the row is read at (b, c, d) from (b, c). -/
theorem keep_idx (b : Fin 16) (c d : Fin 64) : idx_main_v6 (idx_main_v7 (ix3 b c d)) = ix2 b c :=
  funext fun a => Fin.ext (by match a with | ⟨0, _⟩ => rfl | ⟨1, _⟩ => rfl)

/-- The row maximum repeated along its row. -/
theorem rowMax_bcast (x0 : (⟨S16x64x256x256, .f32⟩ : BufTy).Contents (Elt Ideal)) (b : Fin 16) (c d : Fin 64) :
    val_main_v7 (F := Ideal) x0 (ix3 b c d)
      = Cert.Spec.rowMax (Cert.Spec.logit (val_main_v0 (F := Ideal) x0) (val_main_v1 (F := Ideal) x0) b c) := by
  rw [val_main_v7_apply, val_main_v6_apply, keep_idx, rowMax_eq]

/-! ## The exponentials, their row sums, the weights -/

/-- The exponential of a logit less its row's maximum. -/
theorem expo_eq (x0 : (⟨S16x64x256x256, .f32⟩ : BufTy).Contents (Elt Ideal)) (b : Fin 16) (c d : Fin 64) :
    val_main_v9 (F := Ideal) x0 (ix3 b c d)
      = Cert.Spec.expo (Cert.Spec.logit (val_main_v0 (F := Ideal) x0) (val_main_v1 (F := Ideal) x0) b c) d := by
  rw [val_main_v9_apply, val_main_v8_apply, logit_eq, rowMax_bcast, Ideal.hostUnary_exp_def, Ideal.subf_def]
  unfold Cert.Spec.expo
  rfl

/-- The index the sum over the last axis reads at row (b, c). -/
theorem sum_idx (b : Fin 16) (c k : Fin 64) : idx_main_v10 (ix2 b c) k = ix3 b c k :=
  funext fun a => Fin.ext (by match a with | ⟨0, _⟩ => rfl | ⟨1, _⟩ => rfl | ⟨2, _⟩ => rfl)

/-- The row's sum of exponentials: the sum starts from the word of zero, which is zero. -/
theorem rowSum_eq (x0 : (⟨S16x64x256x256, .f32⟩ : BufTy).Contents (Elt Ideal)) (b : Fin 16) (c : Fin 64) :
    val_main_v10 (F := Ideal) x0 (ix2 b c)
      = ∑ d : Fin 64, Cert.Spec.expo (Cert.Spec.logit (val_main_v0 (F := Ideal) x0) (val_main_v1 (F := Ideal) x0) b c) d := by
  rw [val_main_v10_apply, val_main_cst_1_apply, Ideal.ofBits_def, Ideal.ofBits_zero_f32, zero_add]
  refine Finset.sum_congr rfl fun k _ => ?_
  rw [sum_idx, expo_eq]

/-- The kept row sum is read at (b, c, d) from (b, c). -/
theorem keep_idx' (b : Fin 16) (c d : Fin 64) : idx_main_v11 (idx_main_v12 (ix3 b c d)) = ix2 b c :=
  funext fun a => Fin.ext (by match a with | ⟨0, _⟩ => rfl | ⟨1, _⟩ => rfl)

/-- The row sum repeated along its row. -/
theorem rowSum_bcast (x0 : (⟨S16x64x256x256, .f32⟩ : BufTy).Contents (Elt Ideal)) (b : Fin 16) (c d : Fin 64) :
    val_main_v12 (F := Ideal) x0 (ix3 b c d)
      = ∑ d' : Fin 64, Cert.Spec.expo (Cert.Spec.logit (val_main_v0 (F := Ideal) x0) (val_main_v1 (F := Ideal) x0) b c) d' := by
  rw [val_main_v12_apply, val_main_v11_apply, keep_idx', rowSum_eq]

/-- The attention weight at (b, c, d): the exponential there divided by its row's sum. -/
theorem attn_pt (x0 : (⟨S16x64x256x256, .f32⟩ : BufTy).Contents (Elt Ideal)) (b : Fin 16) (c d : Fin 64) :
    val_main_v13 (F := Ideal) x0 (ix3 b c d)
      = Ideal.div (Cert.Spec.expo (Cert.Spec.logit (val_main_v0 (F := Ideal) x0) (val_main_v1 (F := Ideal) x0) b c) d)
          (∑ d' : Fin 64, Cert.Spec.expo (Cert.Spec.logit (val_main_v0 (F := Ideal) x0) (val_main_v1 (F := Ideal) x0) b c) d') := by
  rw [val_main_v13_apply, expo_eq, rowSum_bcast, Ideal.hostDivf_def]

/-- The specification's weight at an index, over any query and key. -/
theorem attn_apply (q : Cert.Spec.SQ.Idx → EReal) (kk : Cert.Spec.SK.Idx → EReal) (i : S16x64x64.Idx) :
    Cert.Spec.attn q kk i
      = Ideal.div (Cert.Spec.expo (Cert.Spec.logit q kk (i 0) (i 1)) (i 2)) (∑ d : Fin 64, Cert.Spec.expo (Cert.Spec.logit q kk (i 0) (i 1)) d) := rfl

/-- So the reference's weights are the specification's, at every index. -/
theorem attn_eq (x0 : (⟨S16x64x256x256, .f32⟩ : BufTy).Contents (Elt Ideal)) (i : S16x64x64.Idx) :
    val_main_v13 (F := Ideal) x0 i
      = Cert.Spec.attn (val_main_v0 (F := Ideal) x0) (val_main_v1 (F := Ideal) x0) i := by
  rw [attn_apply]
  exact (congrArg (val_main_v13 (F := Ideal) x0) (eq_ix3 i)).trans (attn_pt x0 (i 0) (i 1) (i 2))

/-! ## The weighted sum and the result -/

/-- The weights' index under the second contraction. -/
theorem lidx_out (j : S16x64x65536.Idx) (d : Fin 64) : lidx_main_v14 j d = @ix3 16 64 64 (j 0) (j 1) d :=
  funext fun a => Fin.ext (by match a with | ⟨0, _⟩ => rfl | ⟨1, _⟩ => rfl | ⟨2, _⟩ => rfl)

/-- The query's index under the second contraction. -/
theorem ridx_out (j : S16x64x65536.Idx) (d : Fin 64) : ridx_main_v14 j d = @ix3 16 64 65536 (j 0) d (j 2) :=
  funext fun a => Fin.ext (by match a with | ⟨0, _⟩ => rfl | ⟨1, _⟩ => rfl | ⟨2, _⟩ => rfl)

/-- The specification's output at an index, over any weights and query. -/
theorem out_apply (a : Cert.Spec.SA.Idx → EReal) (q : Cert.Spec.SQ.Idx → EReal) (j : S16x64x65536.Idx) :
    Cert.Spec.out a q j = (∑ d : Fin 64, a (@ix3 16 64 64 (j 0) (j 1) d) * q (@ix3 16 64 65536 (j 0) d (j 2))) + q j := rfl

/-- The specification's output at an index is the second contraction there plus the query there. -/
theorem out_eq (x0 : (⟨S16x64x256x256, .f32⟩ : BufTy).Contents (Elt Ideal)) (j : S16x64x65536.Idx) :
    Cert.Spec.out (Cert.Spec.attn (val_main_v0 (F := Ideal) x0) (val_main_v1 (F := Ideal) x0)) (val_main_v0 (F := Ideal) x0) j
      = val_main_v14 (F := Ideal) x0 j + val_main_v0 (F := Ideal) x0 j := by
  have hs : (∑ d : Fin 64, (val_main_v13 (F := Ideal) x0) (lidx_main_v14 j d) * (val_main_v0 (F := Ideal) x0) (ridx_main_v14 j d))
      = ∑ d : Fin 64, Cert.Spec.attn (val_main_v0 (F := Ideal) x0) (val_main_v1 (F := Ideal) x0) (@ix3 16 64 64 (j 0) (j 1) d)
          * (val_main_v0 (F := Ideal) x0) (@ix3 16 64 65536 (j 0) d (j 2)) :=
    Finset.sum_congr rfl fun d _ => by rw [lidx_out, ridx_out, attn_eq]
  rw [out_apply, val_main_v14_apply, hs]

/-- A row-major position, split by the row length 65536 and the 64 rows of a batch into its batch, its row and its
    place in the row, and put together again (true of every natural number). -/
theorem split_position (N : Nat) : (N / 4194304 * 64 + N / 65536 % 64) * 65536 + N % 65536 = N := by omega

/-- The reshape back reads, at i, the index of [16, 64, 65536] with the same row-major position. -/
theorem rowMajor_back (i : S16x64x256x256.Idx) :
    (S16x64x65536.rowMajor (idx_main_v15 i)).val = (S16x64x256x256.rowMajor i).val := by
  rw [Shape.rowMajor_val_three, Shape.rowMajor_val_four]
  exact split_position ((((i 0).val * 64 + (i 1).val) * 256 + (i 2).val) * 256 + (i 3).val)

/-- The reference's last stage, at the ideal values, is the specification's `final`. -/
theorem ref_value (x0 : (⟨S16x64x256x256, .f32⟩ : BufTy).Contents (Elt Ideal)) :
    val_main_v16 (F := Ideal) x0
      = Cert.Spec.final x0 shapeCasts_S16x64x256x256_S16x64x65536 shapeCasts_S16x64x256x256_S16x65536x64 shapeCasts_S16x64x65536_S16x64x256x256 := by
  funext i
  rw [val_main_v16_apply, val_main_v15_apply, Ideal.addf_def]
  unfold Cert.Spec.final
  rw [shapeCast_apply _ shapeCasts_S16x64x65536_S16x64x256x256 i (idx_main_v15 i) (rowMajor_back i)]
  have hq : val_main_v0 (F := Ideal) x0 (idx_main_v15 i) = x0 i :=
    shapeCast_apply x0 shapeCasts_S16x64x256x256_S16x64x65536 (idx_main_v15 i) i (rowMajor_back i).symm
  have ho := out_eq x0 (idx_main_v15 i)
  rw [hq] at ho
  exact ho.symm

end Cert.ReferenceIdeal.RefValue

end
-- ==== Proof.lean ====
/- The certificate of a channel-attention kernel against its reference, over the extended reals.

   Both programs read the input x : [16, 64, 256, 256] as a query q : [16, 64, 65536] and as a key kk : [16, 65536, 64]
   (two reshapes of the same data), form the logits Σ_n q[b, c, n] · kk[b, n, d], take the row softmax (each row's
   maximum from -∞, the exponentials of the differences, each divided by its row's sum), and return
   Σ_d attn[b, c, d] · q[b, d, n] + q[b, c, n] reshaped to the input's shape. The reference does so in whole-array host
   operations. The kernel does it in two pipelines: the first adds the logits up in an accumulator over eight stretches of
   8192 positions per batch and writes the softmax at the batch's last step; the second multiplies a batch's attention
   block with a 16384-wide stretch of the query and adds that stretch. At the ideal values the two differ only in the
   grouping of the one sum over the 65536 positions, and in adding the query before the last reshape rather than after:
   sums over a commutative monoid regroup, and a reshape commutes with a pointwise sum. No finiteness of the input is used.

   The three frame claims: the two kernel programs by the run of their four items (two reshapes, the two pipelines, the
   last reshape), at any float instance; the reference by its run read back. The kernel program printed for the ideal
   values is the word-level one's own text (the ideal pass rewrote nothing), so `preserves` is trivially true. -/
import proofs.«113237_j50362786513234_1_alg».proof.Defs
import proofs.«113237_j50362786513234_1_alg».proof.Proof.Gen.Kernel
import proofs.«113237_j50362786513234_1_alg».proof.Proof.Gen.KernelIdeal
import proofs.«113237_j50362786513234_1_alg».proof.Proof.Gen.ReferenceIdeal
import proofs.«113237_j50362786513234_1_alg».proof.Proof.Gen.Pre_finite_inputs
import proofs.«113237_j50362786513234_1_alg».proof.Proof.Gen.ReferenceIdeal.Run
import proofs.«113237_j50362786513234_1_alg».proof.Proof.BitsRun
import proofs.«113237_j50362786513234_1_alg».proof.Proof.KernelValue
import proofs.«113237_j50362786513234_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its argument as launched. -/
theorem frame_k : Cert.frame_Kernel := fun m ρ _ => Cert.Kernel.Hand.frame m ρ

/-- So does the kernel program read at the ideal values. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the argument both programs end with the specification's function of it in their result. -/
theorem algebraic : Cert.algebraic_KernelIdeal_ReferenceIdeal := by
  intro m ρ m' ρ' _ hagree
  refine ⟨fun c => Cert.Spec.final (m ((c.tc : Thread Cert.KernelIdeal.nD Cert.KernelIdeal.τ).loc Cert.KernelIdeal.main_arg0))
      Cert.KernelIdeal.Facts₀.shapeCasts_S16x64x256x256_S16x64x65536 Cert.KernelIdeal.Facts₀.shapeCasts_S16x64x256x256_S16x65536x64
      Cert.KernelIdeal.Facts₀.shapeCasts_S16x64x65536_S16x64x256x256, ?_, ?_⟩
  · exact (θ_run Cert.KernelIdeal.defs _ _).mono
      (fun _ h c => ⟨(h c _ (Cert.KernelIdeal.Hand.mem_uc Cert.KernelIdeal.main_v4 (by decide))).trans (Cert.KernelIdeal.HandValue.result_value m ρ c),
        (h c _ (Cert.KernelIdeal.Hand.mem_uc Cert.KernelIdeal.main_arg0 (by decide))).trans (Cert.KernelIdeal.Hand.W4_main_arg0 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.ReferenceIdeal.RefValue.ref_value, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
